-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x8 : Shape := ⟨3, ![4096, 16, 8]⟩
abbrev S_ : Shape := ⟨0, ![]⟩

class Facts : Prop where
  bcast_S_S4096x16x8 : S_.BroadcastsInDim S4096x16x8 (![] : Fin 0 → Fin S4096x16x8.rank)
  reducesTo_S4096x16x8_S_d0_1_2 : S4096x16x8.ReducesTo [0, 1, 2] S_
  h_S_ : 0 < S_.numel

variable [Facts]

def fn {F : FTy → Type} [FloatOps F] (main_arg0 : FVec F S4096x16x8 .f32) (main_arg1 : FVec F S4096x16x8 .f32) (main_arg2 : FVec F S4096x16x8 .f32) : IVec S_ 1 :=
  let main_v0 : FVec F S4096x16x8 .f32 := Host.absf main_arg0
  let main_cst : FVec F S_ .f32 := constant S_ .f32 0x7F800000#32
  let main_v1 : FVec F S4096x16x8 .f32 := broadcastInDim S4096x16x8 ![] bcast_S_S4096x16x8 main_cst
  let main_v2 : IVec S4096x16x8 1 := cmpf .olt main_v0 main_v1
  let main_c : IVec S_ 1 := constantI S_ 1 1#1
  let main_v3 : IVec S_ 1 := (fun x v => Host.reduce IntOp.andi x v reducesTo_S4096x16x8_S_d0_1_2 h_S_) main_v2 main_c
  let main_v4 : FVec F S4096x16x8 .f32 := Host.absf main_arg1
  let main_cst_0 : FVec F S_ .f32 := constant S_ .f32 0x7F800000#32
  let main_v5 : FVec F S4096x16x8 .f32 := broadcastInDim S4096x16x8 ![] bcast_S_S4096x16x8 main_cst_0
  let main_v6 : IVec S4096x16x8 1 := cmpf .olt main_v4 main_v5
  let main_c_1 : IVec S_ 1 := constantI S_ 1 1#1
  let main_v7 : IVec S_ 1 := (fun x v => Host.reduce IntOp.andi x v reducesTo_S4096x16x8_S_d0_1_2 h_S_) main_v6 main_c_1
  let main_v8 : IVec S_ 1 := andi main_v3 main_v7
  let main_v9 : FVec F S4096x16x8 .f32 := Host.absf main_arg2
  let main_cst_2 : FVec F S_ .f32 := constant S_ .f32 0x7F800000#32
  let main_v10 : FVec F S4096x16x8 .f32 := broadcastInDim S4096x16x8 ![] bcast_S_S4096x16x8 main_cst_2
  let main_v11 : IVec S4096x16x8 1 := cmpf .olt main_v9 main_v10
  let main_c_3 : IVec S_ 1 := constantI S_ 1 1#1
  let main_v12 : IVec S_ 1 := (fun x v => Host.reduce IntOp.andi x v reducesTo_S4096x16x8_S_d0_1_2 h_S_) main_v11 main_c_3
  let main_v13 : IVec S_ 1 := andi main_v8 main_v12
  main_v13
-- ==== Kernel.lean ====
abbrev S4096x16x8 : Shape := ⟨3, ![4096, 16, 8]⟩
abbrev S4096x128 : Shape := ⟨2, ![4096, 128]⟩
abbrev S512x128 : Shape := ⟨2, ![512, 128]⟩
abbrev S512x1 : Shape := ⟨2, ![512, 1]⟩
abbrev S512 : Shape := ⟨1, ![512]⟩
abbrev S1x512 : Shape := ⟨2, ![1, 512]⟩
abbrev S128x512 : Shape := ⟨2, ![128, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x16x8, .f32⟩
  | .hbm, ⟨1, _⟩ => ⟨S4096x16x8, .f32⟩
  | .hbm, ⟨2, _⟩ => ⟨S4096x16x8, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x16x8, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1, .f32⟩
  | .local _ .vmem, ⟨10, _⟩ => ⟨S512x128, .f32⟩
  | .local _ .vmem, ⟨11, _⟩ => ⟨S512x1, .f32⟩
  | _, _ => ⟨S4096x16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v90 : BitVec 1 := Scalar.cmpi .eq arg1 c7_i32
  let v91 : BitVec 32 := Scalar.extui v90
  let c0_i32_41 : BitVec 32 := 0#32
  let v92 : BitVec 1 := Scalar.cmpi .ne v91 c0_i32_41
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096x16x8_S4096x128 : S4096x16x8.ShapeCasts S4096x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x128_S512 : S512x128.Reduces [1] S512
  shapeCasts_S512_S512x1 : S512.ShapeCasts S512x1
  shapeCasts_S512_S1x512 : S512.ShapeCasts S1x512
  bitsLt_bf16_f32 : FTy.bits .bf16 < FTy.bits .f32
  transposes_S512x128_p1_0_S128x512 : S512x128.Transposes [1, 0] S128x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  broadcasts_S512x1_S512x128 : S512x1.Broadcasts S512x128
  shapeCasts_S4096x128_S4096x16x8 : S4096x128.ShapeCasts S4096x16x8
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x16x8 : Shape := ⟨3, ![4096, 16, 8]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

abbrev nBuf : Space → Nat
  | .hbm => 118
  | .vmem => 0
  | .smem => 0
  | _ => 0

abbrev bufTy : (tb : Table) → Fin (tcTables nBuf tb) → BufTy
  | .hbm, ⟨0, _⟩ => ⟨S4096x16x8, .f32⟩
  | .hbm, ⟨1, _⟩ => ⟨S4096x16x8, .f32⟩
  | .hbm, ⟨2, _⟩ => ⟨S4096x16x8, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S4096x128, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S128x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x4096, .f32⟩
  | .hbm, ⟨49, _⟩ => ⟨S4096x4096, .f32⟩
  | .hbm, ⟨50, _⟩ => ⟨S4096x1, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S_, .f32⟩
  | .hbm, ⟨56, _⟩ => ⟨S4096x128, .f32⟩
  | .hbm, ⟨57, _⟩ => ⟨S4096x128, .f32⟩
  | .hbm, ⟨58, _⟩ => ⟨S_, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S_, .f32⟩
  | .hbm, ⟨63, _⟩ => ⟨S4096, .f32⟩
  | .hbm, ⟨64, _⟩ => ⟨S4096x128, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S128x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S4096x4096, .i32⟩
  | .hbm, ⟨87, _⟩ => ⟨S4096x4096, .i32⟩
  | .hbm, ⟨88, _⟩ => ⟨S_, .i32⟩
  | .hbm, ⟨89, _⟩ => ⟨S4096x4096, .i32⟩
  | .hbm, ⟨90, _⟩ => ⟨S4096x4096, .i32⟩
  | .hbm, ⟨91, _⟩ => ⟨S4096x4096, .i1⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S4096x4096, .f32⟩
  | .hbm, ⟨104, _⟩ => ⟨S4096x4096, .f32⟩
  | .hbm, ⟨105, _⟩ => ⟨S4096x1, .f32⟩
  | .hbm, ⟨106, _⟩ => ⟨S4096x128, .f32⟩
  | .hbm, ⟨107, _⟩ => ⟨S4096x128, .f32⟩
  | .hbm, ⟨108, _⟩ => ⟨S4096x128, .f32⟩
  | .hbm, ⟨109, _⟩ => ⟨S4096x128, .f32⟩
  | .hbm, ⟨110, _⟩ => ⟨S_, .f32⟩
  | .hbm, ⟨111, _⟩ => ⟨S4096x128, .f32⟩
  | .hbm, ⟨112, _⟩ => ⟨S4096x128, .f32⟩
  | .hbm, ⟨113, _⟩ => ⟨S_, .f32⟩
  | .hbm, ⟨114, _⟩ => ⟨S4096x128, .f32⟩
  | .hbm, ⟨115, _⟩ => ⟨S4096x128, .f32⟩
  | .hbm, ⟨116, _⟩ => ⟨S4096x128, .f32⟩
  | .hbm, ⟨117, _⟩ => ⟨S4096x16x8, .f32⟩
  | _, _ => ⟨S4096x16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_18 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]

class Facts₀ : Prop where
  shapeCasts_S4096x16x8_S4096x128 : S4096x16x8.ShapeCasts S4096x128
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S_S4096x128 : S_.BroadcastsInDim S4096x128 (![] : Fin 0 → Fin S4096x128.rank)
  shapeCasts_S4096x128_S4096x16x8 : S4096x128.ShapeCasts S4096x16x8
  dot_S4096x128_S128x4096_S4096x4096_1_0_0_1_n_n_wf : DotDims.WF S4096x128 S128x4096 S4096x4096 [1] [0] [0] [1] [] []
  dot_S4096x4096_S4096x128_S4096x128_1_0_0_1_n_n_wf : DotDims.WF S4096x4096 S4096x128 S4096x128 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Steps.lean ====
/-
  What one grid point does to the four running sums, and what the last point of a row block stores, as functions of
  the point's input blocks and of the sums the point before left — the body's stored values composed.
-/
import proofs.«100952_j30296699306003_1_alg».proof.Proof.Gen.KernelIdeal.Skeleton

noncomputable section

namespace Cert.KernelIdeal.Steps

open Idealize.ShloMosaic Idealize.ShloMosaic.TcCoe Cert.KernelIdeal Cert.KernelIdeal.Gen

variable {F : FTy → Type} [FloatOps F]

/-- The weighted sum against the first target after this point's column block: the sum so far plus w · P-block. -/
def stepAccP (a0 a1 : BitVec 32) (x0 x1 : Vec F S512x128 .f32) (prev : Vec F S512x128 .f32) : Vec F S512x128 .f32 :=
  k0_pay20 a0 a1 (k0_pay9 x1) (k0_pay13 x0 x1) prev
/-- The row sums of the first target's weights after this point. -/
def stepSP (a0 a1 : BitVec 32) (x0 x1 : Vec F S512x128 .f32) (prev : Vec F S512x1 .f32) : Vec F S512x1 .f32 :=
  k0_pay19 a0 a1 (k0_pay13 x0 x1) prev
/-- The second target's weights at this point. -/
def wN (a0 a1 : BitVec 32) (x0 x2 : Vec F S512x128 .f32) : FVec F S512x512 .f32 :=
  k0_pay18 a0 a1 (k0_pay14 x0 x2) (k0_pay15 (F := F))
/-- The weighted sum against the second target after this point. -/
def stepAccN (a0 a1 : BitVec 32) (x0 x2 : Vec F S512x128 .f32) (prev : Vec F S512x128 .f32) : Vec F S512x128 .f32 :=
  k0_pay2 (k0_pay10 x2) (wN a0 a1 x0 x2) prev
/-- The row sums of the second target's weights after this point. -/
def stepSN (a0 a1 : BitVec 32) (x0 x2 : Vec F S512x128 .f32) (prev : Vec F S512x1 .f32) : Vec F S512x1 .f32 :=
  k0_pay1 (wN a0 a1 x0 x2) prev
/-- What the last column block's point stores into the output block, from the finished sums. -/
def finalOut (x0 : Vec F S512x128 .f32) (sp sn : Vec F S512x1 .f32) (ap an : Vec F S512x128 .f32) : Vec F S512x128 .f32 :=
  k0_pay3 (k0_pay8 x0) sp sn sp ap sn an

end Cert.KernelIdeal.Steps

end
-- ==== Proof.Pieces.lean ====
/-
  What each control case of the body leaves in the four running sums (and, at a row block's last point, in the output
  block), as the composed stored values of Steps: the first column block starts the sums from the zero blocks it has
  just stored, the later ones add to what the point before left, and the last one also stores the combined field.
-/
import proofs.«100952_j30296699306003_1_alg».proof.Proof.Gen.KernelIdeal.Frame
import proofs.«100952_j30296699306003_1_alg».proof.Proof.Steps
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Steps

variable {F : FTy → Type} [FloatOps F]

theorem hz : (![0, 0] : Fin 2 → Nat) = fun _ => 0 := funext fun a => by fin_cases a <;> rfl

/-- Case A: the first target's weighted sums. -/
theorem sout_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond0_0 i) (hc1 : ¬cond0_1 i)
    (x0 : Vec F S512x128 .f32) (x1 : Vec F S512x128 .f32) (x2 : Vec F S512x128 .f32) :
    sout0_A_0 c i arg2 harg2 arg3 harg3 arg4 harg4 arg5 harg5 arg6 harg6 arg7 harg7 arg8 harg8 arg9 harg9 hc0 hc1 x0 x1 x2 = stepAccP (BitVec.ofNat 32 (i 0).val) (BitVec.ofNat 32 (i 1).val) x0 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x128) hz]
  unfold stepAccP
  simp only [View.readAt_eq_ld, harg2.read_unread, harg3.read_unread, View.ld_unit_zero (S := S512x128) hz, View.readCov_unit_zero (S := S512x128) _ hz]

/-- Case A: the first target's row sums. -/
theorem sout_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond0_0 i) (hc1 : ¬cond0_1 i)
    (x0 : Vec F S512x128 .f32) (x1 : Vec F S512x128 .f32) (x2 : Vec F S512x128 .f32) :
    sout0_A_1 c i arg2 harg2 arg3 harg3 arg4 harg4 arg5 harg5 arg6 harg6 arg7 harg7 arg8 harg8 arg9 harg9 hc0 hc1 x0 x1 x2 = stepSP (BitVec.ofNat 32 (i 0).val) (BitVec.ofNat 32 (i 1).val) x0 x1 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz]
  unfold stepSP
  simp only [View.readAt_eq_ld, harg2.read_unread, harg3.read_unread, View.ld_unit_zero (S := S512x128) hz, View.readCov_unit_zero (S := S512x1) _ hz]

/-- Case A: the second target's weighted sums. -/
theorem sout_A_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond0_0 i) (hc1 : ¬cond0_1 i)
    (x0 : Vec F S512x128 .f32) (x1 : Vec F S512x128 .f32) (x2 : Vec F S512x128 .f32) :
    sout0_A_2 c i arg2 harg2 arg3 harg3 arg4 harg4 arg5 harg5 arg6 harg6 arg7 harg7 arg8 harg8 arg9 harg9 hc0 hc1 x0 x1 x2 = stepAccN (BitVec.ofNat 32 (i 0).val) (BitVec.ofNat 32 (i 1).val) x0 x2 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x128) hz]
  unfold stepAccN wN
  simp only [View.readAt_eq_ld, harg2.read_unread, harg4.read_unread, View.ld_unit_zero (S := S512x128) hz, View.readCov_unit_zero (S := S512x128) _ hz]

/-- Case A: the second target's row sums. -/
theorem sout_A_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : cond0_0 i) (hc1 : ¬cond0_1 i)
    (x0 : Vec F S512x128 .f32) (x1 : Vec F S512x128 .f32) (x2 : Vec F S512x128 .f32) :
    sout0_A_3 c i arg2 harg2 arg3 harg3 arg4 harg4 arg5 harg5 arg6 harg6 arg7 harg7 arg8 harg8 arg9 harg9 hc0 hc1 x0 x1 x2 = stepSN (BitVec.ofNat 32 (i 0).val) (BitVec.ofNat 32 (i 1).val) x0 x2 (k0_pay7 (F := F)) := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz]
  unfold stepSN wN
  simp only [View.readAt_eq_ld, harg2.read_unread, harg4.read_unread, View.ld_unit_zero (S := S512x128) hz, View.readCov_unit_zero (S := S512x1) _ hz]

/-- Case B: the first target's weighted sums. -/
theorem sout_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : ¬cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_B_0 c i arg2 harg2 arg3 harg3 arg4 harg4 arg5 harg5 arg6 harg6 arg7 harg7 arg8 harg8 arg9 harg9 hc0 hc1 x0 x1 x2 xs0 xs1 xs2 xs3 = stepAccP (BitVec.ofNat 32 (i 0).val) (BitVec.ofNat 32 (i 1).val) x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz]
  unfold stepAccP
  simp only [View.readAt_eq_ld, harg2.read_unread, harg3.read_unread, harg6.read_unread, View.ld_unit_zero (S := S512x128) hz]

/-- Case B: the first target's row sums. -/
theorem sout_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : ¬cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_B_1 c i arg2 harg2 arg3 harg3 arg4 harg4 arg5 harg5 arg6 harg6 arg7 harg7 arg8 harg8 arg9 harg9 hc0 hc1 x0 x1 x2 xs0 xs1 xs2 xs3 = stepSP (BitVec.ofNat 32 (i 0).val) (BitVec.ofNat 32 (i 1).val) x0 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz]
  unfold stepSP
  simp only [View.readAt_eq_ld, harg2.read_unread, harg3.read_unread, harg7.read_unread, View.ld_unit_zero (S := S512x128) hz, View.ld_unit_zero (S := S512x1) hz]

/-- Case B: the second target's weighted sums. -/
theorem sout_B_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : ¬cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_B_2 c i arg2 harg2 arg3 harg3 arg4 harg4 arg5 harg5 arg6 harg6 arg7 harg7 arg8 harg8 arg9 harg9 hc0 hc1 x0 x1 x2 xs0 xs1 xs2 xs3 = stepAccN (BitVec.ofNat 32 (i 0).val) (BitVec.ofNat 32 (i 1).val) x0 x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz]
  unfold stepAccN wN
  simp only [View.readAt_eq_ld, harg2.read_unread, harg4.read_unread, harg8.read_unread, View.ld_unit_zero (S := S512x128) hz]

/-- Case B: the second target's row sums. -/
theorem sout_B_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : ¬cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_B_3 c i arg2 harg2 arg3 harg3 arg4 harg4 arg5 harg5 arg6 harg6 arg7 harg7 arg8 harg8 arg9 harg9 hc0 hc1 x0 x1 x2 xs0 xs1 xs2 xs3 = stepSN (BitVec.ofNat 32 (i 0).val) (BitVec.ofNat 32 (i 1).val) x0 x2 xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_unit_zero hz]
  unfold stepSN wN
  simp only [View.readAt_eq_ld, harg2.read_unread, harg4.read_unread, harg9.read_unread, View.ld_unit_zero (S := S512x128) hz, View.ld_unit_zero (S := S512x1) hz]

/-- Case C: the first target's weighted sums. -/
theorem sout_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_C_0 c i arg2 harg2 arg3 harg3 arg4 harg4 arg5 harg5 arg6 harg6 arg7 harg7 arg8 harg8 arg9 harg9 hc0 hc1 x0 x1 x2 xs0 xs1 xs2 xs3 = stepAccP (BitVec.ofNat 32 (i 0).val) (BitVec.ofNat 32 (i 1).val) x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero hz]
  unfold stepAccP
  simp only [View.readAt_eq_ld, harg2.read_unread, harg3.read_unread, harg6.read_unread, View.ld_unit_zero (S := S512x128) hz]

/-- Case C: the first target's row sums. -/
theorem sout_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_C_1 c i arg2 harg2 arg3 harg3 arg4 harg4 arg5 harg5 arg6 harg6 arg7 harg7 arg8 harg8 arg9 harg9 hc0 hc1 x0 x1 x2 xs0 xs1 xs2 xs3 = stepSP (BitVec.ofNat 32 (i 0).val) (BitVec.ofNat 32 (i 1).val) x0 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero hz]
  unfold stepSP
  simp only [View.readAt_eq_ld, harg2.read_unread, harg3.read_unread, harg7.read_unread, View.ld_unit_zero (S := S512x128) hz, View.ld_unit_zero (S := S512x1) hz]

/-- Case C: the second target's weighted sums. -/
theorem sout_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_C_2 c i arg2 harg2 arg3 harg3 arg4 harg4 arg5 harg5 arg6 harg6 arg7 harg7 arg8 harg8 arg9 harg9 hc0 hc1 x0 x1 x2 xs0 xs1 xs2 xs3 = stepAccN (BitVec.ofNat 32 (i 0).val) (BitVec.ofNat 32 (i 1).val) x0 x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero hz]
  unfold stepAccN wN
  simp only [View.readAt_eq_ld, harg2.read_unread, harg4.read_unread, harg8.read_unread, View.ld_unit_zero (S := S512x128) hz]

/-- Case C: the second target's row sums. -/
theorem sout_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    sout0_C_3 c i arg2 harg2 arg3 harg3 arg4 harg4 arg5 harg5 arg6 harg6 arg7 harg7 arg8 harg8 arg9 harg9 hc0 hc1 x0 x1 x2 xs0 xs1 xs2 xs3 = stepSN (BitVec.ofNat 32 (i 0).val) (BitVec.ofNat 32 (i 1).val) x0 x2 xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero hz]
  unfold stepSN wN
  simp only [View.readAt_eq_ld, harg2.read_unread, harg4.read_unread, harg9.read_unread, View.ld_unit_zero (S := S512x128) hz, View.ld_unit_zero (S := S512x1) hz]

/-- Case C: the output block, the combined field of the finished sums. -/
theorem out_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x1 .f32) (harg9 : arg9.IsWhole) (hc0 : ¬cond0_0 i) (hc1 : cond0_1 i)
    (x0 : Vec F S512x128 .f32) (x1 : Vec F S512x128 .f32) (x2 : Vec F S512x128 .f32) (xs0 : Vec F S512x128 .f32) (xs1 : Vec F S512x1 .f32) (xs2 : Vec F S512x128 .f32) (xs3 : Vec F S512x1 .f32) :
    out0_C_3 c i arg2 harg2 arg3 harg3 arg4 harg4 arg5 harg5 arg6 harg6 arg7 harg7 arg8 harg8 arg9 harg9 hc0 hc1 x0 x1 x2 xs0 xs1 xs2 xs3
      = finalOut x0 (stepSP (BitVec.ofNat 32 (i 0).val) (BitVec.ofNat 32 (i 1).val) x0 x1 xs1) (stepSN (BitVec.ofNat 32 (i 0).val) (BitVec.ofNat 32 (i 1).val) x0 x2 xs3)
          (stepAccP (BitVec.ofNat 32 (i 0).val) (BitVec.ofNat 32 (i 1).val) x0 x1 xs0) (stepAccN (BitVec.ofNat 32 (i 0).val) (BitVec.ofNat 32 (i 1).val) x0 x2 xs2) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_unit_zero hz]
  unfold finalOut stepSP stepSN stepAccP stepAccN wN
  simp only [View.readAt_eq_ld, harg2.read_unread, harg3.read_unread, harg4.read_unread, harg6.read_unread, harg7.read_unread, harg8.read_unread, harg9.read_unread, View.ld_unit_zero (S := S512x128) hz, View.ld_unit_zero (S := S512x1) hz, View.readCov_unit_zero (S := S512x128) _ hz, View.readCov_unit_zero (S := S512x1) _ hz]

end Cert.KernelIdeal.Pieces

end
-- ==== Proof.Spec.lean ====
/-
  The mathematics of the drift field, over the extended reals.

  For row arrays X, Y of shape [4096, 128] the pairwise weight is
      w(i, j) = 0 on the diagonal, exp(-max(|X_i|² + |Y_j|² - 2 X_i·Y_j, 0) / 2) off it,
  its row sum S(i) = Σ_j w(i, j) and weighted sum A(i, k) = Σ_j w(i, j) · Y(j, k), and the field
      D(i, k) = X(i, k) · (S(i) / max(S(i), ε)) - A(i, k) / max(S(i), ε).
  The result is  -1 · D(X, P) + ½ · D(X, N).

  The 4096 rows (and the 4096 columns of w) are cut into 8 blocks of 512; a column block's share of S and A is a
  block sum, and S and A are the sums of their eight block sums, added one block after the other.
-/
import Idealize.ShloMosaic.PureOps.Ideal
import Idealize.ShloMosaic.PureOps.Ideal.Laws
import Idealize.ShloMosaic.Lib.ValueIdx

noncomputable section

open scoped BigOperators

namespace Cert.Drift

open Idealize.ShloMosaic Idealize.ShloMosaic.ValueIdx

/-- A [4096, 128] array of extended reals. -/
abbrev Flat := (⟨2, ![4096, 128]⟩ : Shape).Idx → EReal
/-- A [512, 128] block. -/
abbrev Blk := (⟨2, ![512, 128]⟩ : Shape).Idx → EReal
/-- A [512, 1] column. -/
abbrev Col := (⟨2, ![512, 1]⟩ : Shape).Idx → EReal

/-- The literals the two programs share, as the extended reals their words denote. -/
def two : EReal := Ideal.ofBits .f32 0x40000000#32
def half : EReal := Ideal.ofBits .f32 0x3F000000#32
def eps : EReal := Ideal.ofBits .f32 0x322BCC77#32
def one : EReal := Ideal.ofBits .f32 0x3F800000#32
def negOne : EReal := Ideal.ofBits .f32 0xBF800000#32

/-- Row r of row block b is row 512·b + r of the array. -/
def row (b : Fin 8) (r : Fin 512) : Fin 4096 := ⟨b.val * 512 + r.val, by have := b.isLt; have := r.isLt; omega⟩

/-- Row block b of an array. -/
def blkOf (X : Flat) (b : Fin 8) : Blk := fun y => X (ix2 (row b (y 0)) (y 1))

theorem blkOf_apply (X : Flat) (b : Fin 8) (r : Fin 512) (k : Fin 128) : blkOf X b (ix2 r k) = X (ix2 (row b r) k) := rfl

/-! ## One block against one block -/

/-- The squared norm of row r of a block. -/
def bsq (z : Blk) (r : Fin 512) : EReal := ∑ k : Fin 128, z (ix2 r k) * z (ix2 r k)
/-- The inner product of row r of x and row c of y. -/
def bdot (x y : Blk) (r c : Fin 512) : EReal := ∑ k : Fin 128, x (ix2 r k) * y (ix2 c k)
/-- The clamped squared distance. -/
def bdist (x y : Blk) (r c : Fin 512) : EReal := max (bsq x r + bsq y c - two * bdot x y r c) 0
/-- The weight of the pair (row r of row block a, row c of column block b): zero on the diagonal of the whole matrix. -/
def bwgt (a b : ℕ) (x y : Blk) (r c : Fin 512) : EReal :=
  if a * 512 + r.val = b * 512 + c.val then 0 else Ideal.exp ((0 - bdist x y r c) * half)
/-- A column block's share of the row sum. -/
def bS (a b : ℕ) (x y : Blk) (r : Fin 512) : EReal := ∑ c : Fin 512, bwgt a b x y r c
/-- A column block's share of the weighted sum. -/
def bA (a b : ℕ) (x y : Blk) (r : Fin 512) (k : Fin 128) : EReal := ∑ c : Fin 512, bwgt a b x y r c * y (ix2 c k)

/-- The field of one row block from its row sums and weighted sums. -/
def field (x : Blk) (s : Fin 512 → EReal) (acc : Fin 512 → Fin 128 → EReal) (r : Fin 512) (k : Fin 128) : EReal :=
  x (ix2 r k) * Ideal.div (s r) (max (s r) eps) - Ideal.div (acc r k) (max (s r) eps)

/-- The combination of the two fields. -/
def combine (dp dn : EReal) : EReal := negOne * dp + half * dn

/-! ## A row block against the first n + 1 column blocks -/

/-- The share of column block j (zero past the eighth). -/
def shareS (X Y : Flat) (ib : Fin 8) (j : ℕ) (r : Fin 512) : EReal :=
  if h : j < 8 then bS ib.val j (blkOf X ib) (blkOf Y ⟨j, h⟩) r else 0
def shareA (X Y : Flat) (ib : Fin 8) (j : ℕ) (r : Fin 512) (k : Fin 128) : EReal :=
  if h : j < 8 then bA ib.val j (blkOf X ib) (blkOf Y ⟨j, h⟩) r k else 0
/-- The row sums after column blocks 0 … n. -/
def partS (X Y : Flat) (ib : Fin 8) (n : ℕ) (r : Fin 512) : EReal := ∑ j ∈ Finset.range (n + 1), shareS X Y ib j r
/-- The weighted sums after column blocks 0 … n. -/
def partA (X Y : Flat) (ib : Fin 8) (n : ℕ) (r : Fin 512) (k : Fin 128) : EReal := ∑ j ∈ Finset.range (n + 1), shareA X Y ib j r k

/-- The same as a [512, 1] column and a [512, 128] block, for row block a (empty past the eighth). -/
def sCol (X Y : Flat) (a n : ℕ) : Col := fun y => if h : a < 8 then partS X Y ⟨a, h⟩ n (y 0) else 0
def aBlk (X Y : Flat) (a n : ℕ) : Blk := fun y => if h : a < 8 then partA X Y ⟨a, h⟩ n (y 0) (y 1) else 0

/-- The result's row block ib, from the sums over all eight column blocks. -/
def outRows (X P N : Flat) (ib : Fin 8) (r : Fin 512) (k : Fin 128) : EReal :=
  combine (field (blkOf X ib) (partS X P ib 7) (partA X P ib 7) r k) (field (blkOf X ib) (partS X N ib 7) (partA X N ib 7) r k)
def outBlk (X P N : Flat) (a : ℕ) : Blk := fun y => if h : a < 8 then outRows X P N ⟨a, h⟩ (y 0) (y 1) else 0

/-- The whole result, row block by row block. -/
def outFlat (X P N : Flat) : Flat := fun i =>
  outRows X P N ⟨(i 0).val / 512, by have h : (i 0).val < 4096 := (i 0).isLt; omega⟩ ⟨(i 0).val % 512, Nat.mod_lt _ (by decide)⟩ (i 1)

/-! ## The same field the direct way -/

/-- The weight as the reference spells it: the quotient by two, and the product with one minus the diagonal's indicator. -/
def wgtR (X Y : Flat) (i j : Fin 4096) : EReal :=
  Ideal.exp (Ideal.div (-(max ((∑ k : Fin 128, X (ix2 i k) * X (ix2 i k)) + (∑ k : Fin 128, Y (ix2 j k) * Y (ix2 j k))
    - two * ∑ k : Fin 128, X (ix2 i k) * Y (ix2 j k)) 0)) two) * (one - (if i = j then (1 : EReal) else 0))
/-- Its row sum. -/
def sumR (X Y : Flat) (i : Fin 4096) : EReal := ∑ j : Fin 4096, wgtR X Y i j
/-- The reference's field: the weights are normalized first, then summed against Y. -/
def fieldR (X Y : Flat) (i : Fin 4096) (k : Fin 128) : EReal :=
  X (ix2 i k) * Ideal.div (sumR X Y i) (max (sumR X Y i) eps)
    - ∑ j : Fin 4096, Ideal.div (wgtR X Y i j) (max (sumR X Y i) eps) * Y (ix2 j k)
/-- The reference's result. -/
def outFlatR (X P N : Flat) : Flat := fun i =>
  one * (negOne * fieldR X P (i 0) (i 1)) + half * (one * fieldR X N (i 0) (i 1))

end Cert.Drift

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.PayW.lean ====
/-
  The weights of one grid point read entry by entry over the extended reals: zero where the global row number equals
  the global column number, elsewhere exp of minus half the clamped squared distance of the two rows.
-/
import proofs.«100952_j30296699306003_1_alg».proof.Proof.Steps
import proofs.«100952_j30296699306003_1_alg».proof.Proof.Spec
import proofs.«100952_j30296699306003_1_alg».proof.Proof.LibMatmulPlain
import Idealize.ShloMosaic.Lib.Pipeline.Value
import Idealize.ShloMosaic.Lib.ValueLayout

noncomputable section

open scoped BigOperators

namespace Cert.KernelIdeal.PayW

open Idealize.ShloMosaic Idealize.ShloMosaic.TcCoe Idealize.ShloMosaic.ValueIdx
open Cert.KernelIdeal Cert.KernelIdeal.Gen Cert.KernelIdeal.Steps Cert.Drift

/-- A sum along the lanes of a [512, 128] block, read at row r. -/
private theorem laneSum_apply (src : FVec Ideal S512x128 .f32) (h : S512x128.Reduces [1] S512) (hφ : FKind.Formats .f32)
    (hacc : (0x00000000#32 : BitVec 32) = 0x00000000#32) (r : Fin 512) :
    multiReduction .add [1] S512 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext c
  match c with
  | ⟨0, _⟩ => exact Fin.ext (by rw [h.lift_val]; simp [Shape.Reduces.liftVal])
  | ⟨1, _⟩ => exact Fin.ext (by rw [h.lift_val]; simp [Shape.Reduces.liftVal])

/-- A [512] vector viewed as a [512, 1] column. -/
private theorem castCol_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A [512] vector viewed as a [1, 512] row. -/
private theorem castRow_apply {α : Type} (x : S512.Idx → α) (h : S512.ShapeCasts S1x512) (u : Fin 1) (c : Fin 512) :
    shapeCast S1x512 x h (ix2 u c) = x (ix1 c) :=
  shapeCast_a_1a_apply x h u c

/-- A [512, 1] column broadcast along the lanes. -/
private theorem colBroadcast_apply {α : Type} (x : S512x1.Idx → α) (h : S512x1.Broadcasts S512x512) (r c : Fin 512) :
    broadcastTo S512x512 x h (ix2 r c) = x (ix2 r (0 : Fin 1)) := by
  refine broadcastTo_apply x h (ix2 r c) (ix2 r (0 : Fin 1)) fun ax => ?_
  match ax with
  | ⟨0, _⟩ => rfl
  | ⟨1, _⟩ => rfl

/-- A [1, 512] row broadcast down the rows. -/
private theorem rowBroadcast512_apply {α : Type} (x : S1x512.Idx → α) (h : S1x512.Broadcasts S512x512) (r c : Fin 512) :
    broadcastTo S512x512 x h (ix2 r c) = x (ix2 (0 : Fin 1) c) :=
  Cert.LibMatmulPlain.rowBroadcast_apply x h r c

/-- The kernel's product record is the plain 512×128 by 128×512 one. -/
private theorem dot_eq_plain : dot_S512x128_S128x512_S512x512_1_0_0_1_n_n = DotDims.plain 512 128 512 := rfl

/-- The product of a [512, 128] block by a [128, 512] block into zero, read at (r, c). -/
private theorem gram_apply {φ₁ φ₂ : FTy} (A : FVec Ideal S512x128 φ₁) (B : FVec Ideal S128x512 φ₂) (r c : Fin 512) :
    matmul dot_S512x128_S128x512_S512x512_1_0_0_1_n_n none A B (constant S512x512 .f32 0x00000000#32) (ix2 r c)
      = ∑ k : Fin 128, A (ix2 r k) * B (ix2 k c) := by
  rw [dot_eq_plain]
  exact Cert.LibMatmulPlain.matmul_plain_zero_apply (m := 512) (k := 128) (n := 512) none A B r c

/-- The squared norms of a block's rows, as the kernel's [512, 1] column. -/
private theorem pay11_apply (x0 : Vec Ideal S512x128 .f32) (r : Fin 512) (u : Fin 1) :
    k0_pay11 x0 (ix2 r u) = bsq x0 r := by
  unfold k0_pay11
  refine (castCol_apply _ _ r u).trans ?_
  refine (laneSum_apply _ _ _ _ r).trans ?_
  unfold bsq
  refine Finset.sum_congr rfl fun k _ => ?_
  show (k0_pay8 x0) (ix2 r k) * (k0_pay8 x0) (ix2 r k) = _
  unfold k0_pay8
  rw [shapeCast_self]

/-- The squared norms of a block's rows, as a [1, 512] row. -/
private theorem sqRow_apply (y : FVec Ideal S512x128 .f32) (h : S512x128.Reduces [1] S512) (hφ : FKind.Formats .f32)
    (hacc : (0x00000000#32 : BitVec 32) = 0x00000000#32) (hc : S512.ShapeCasts S1x512) (u : Fin 1) (c : Fin 512) :
    shapeCast S1x512 (multiReduction .add [1] S512 (mulf y y) 0x00000000#32 h hφ hacc) hc (ix2 u c) = bsq y c := by
  refine (castRow_apply _ _ u c).trans ?_
  refine (laneSum_apply _ _ _ _ c).trans ?_
  rfl

/-- The inner products of the rows of two blocks, as the kernel forms them. -/
private theorem dotBlk_apply (x0 y : Vec Ideal S512x128 .f32) (hy : S512x128.ShapeCasts S512x128) (r c : Fin 512) :
    matmul dot_S512x128_S128x512_S512x512_1_0_0_1_n_n none (k0_pay12 x0)
      (transpose S128x512 [1, 0] (truncf .bf16 (shapeCast S512x128 y hy) bitsLt_bf16_f32) transposes_S512x128_p1_0_S128x512)
      (constant S512x512 .f32 0x00000000#32) (ix2 r c) = bdot x0 y r c := by
  refine (gram_apply _ _ r c).trans ?_
  unfold bdot
  refine Finset.sum_congr rfl fun k _ => ?_
  rw [transpose_ix2_apply]
  unfold k0_pay12 k0_pay8
  rw [shapeCast_self, shapeCast_self]
  rfl

/-- The clamped squared distances of the rows of two blocks. -/
private theorem pay13_apply (x0 x1 : Vec Ideal S512x128 .f32) (r c : Fin 512) :
    k0_pay13 x0 x1 (ix2 r c) = bdist x0 x1 r c := by
  unfold k0_pay13
  show max ((broadcastTo S512x512 (k0_pay11 x0) broadcasts_S512x1_S512x512 (ix2 r c)
      + broadcastTo S512x512 (shapeCast S1x512 (multiReduction .add [1] S512 (mulf (k0_pay9 x1) (k0_pay9 x1)) 0x00000000#32
          reduces_S512x128_S512 (.inl rfl) rfl) shapeCasts_S512_S1x512) broadcasts_S1x512_S512x512 (ix2 r c))
      - Ideal.ofBits .f32 0x40000000#32 * matmul dot_S512x128_S128x512_S512x512_1_0_0_1_n_n none (k0_pay12 x0)
          (transpose S128x512 [1, 0] (truncf .bf16 (k0_pay9 x1) bitsLt_bf16_f32) transposes_S512x128_p1_0_S128x512)
          (constant S512x512 .f32 0x00000000#32) (ix2 r c))
    (Ideal.ofBits .f32 0x00000000#32) = _
  rw [colBroadcast_apply, rowBroadcast512_apply, pay11_apply]
  unfold k0_pay9
  rw [sqRow_apply, dotBlk_apply, Ideal.ofBits_zero_f32, shapeCast_self]
  rfl

/-- The same distances before the clamp. -/
private theorem pay14_apply (x0 x2 : Vec Ideal S512x128 .f32) (r c : Fin 512) :
    k0_pay14 x0 x2 (ix2 r c) = bsq x0 r + bsq x2 c - two * bdot x0 x2 r c := by
  unfold k0_pay14
  show (broadcastTo S512x512 (k0_pay11 x0) broadcasts_S512x1_S512x512 (ix2 r c)
      + broadcastTo S512x512 (shapeCast S1x512 (multiReduction .add [1] S512 (mulf (k0_pay10 x2) (k0_pay10 x2)) 0x00000000#32
          reduces_S512x128_S512 (.inl rfl) rfl) shapeCasts_S512_S1x512) broadcasts_S1x512_S512x512 (ix2 r c))
      - Ideal.ofBits .f32 0x40000000#32 * matmul dot_S512x128_S128x512_S512x512_1_0_0_1_n_n none (k0_pay12 x0)
          (transpose S128x512 [1, 0] (truncf .bf16 (k0_pay10 x2) bitsLt_bf16_f32) transposes_S512x128_p1_0_S128x512)
          (constant S512x512 .f32 0x00000000#32) (ix2 r c) = _
  rw [colBroadcast_apply, rowBroadcast512_apply, pay11_apply]
  unfold k0_pay10
  rw [sqRow_apply, dotBlk_apply, shapeCast_self]
  rfl

/-- A block number times 512 plus an offset, as 32-bit words. -/
private theorem word_eq (a r : ℕ) : BitVec.ofNat 32 a * 512#32 + BitVec.ofNat 32 r = BitVec.ofNat 32 (a * 512 + r) := by
  apply BitVec.eq_of_toNat_eq
  simp [BitVec.toNat_add, BitVec.toNat_mul, BitVec.toNat_ofNat]

/-- Below 2^32 two words are equal exactly when the numbers are. -/
private theorem word_inj (n m : ℕ) (hn : n < 4096) (hm : m < 4096) : BitVec.ofNat 32 n = BitVec.ofNat 32 m ↔ n = m := by
  constructor
  · intro h
    have := congrArg BitVec.toNat h
    simp only [BitVec.toNat_ofNat] at this
    omega
  · intro h; rw [h]

/-- The diagonal's mask: one where the global row number is the global column number. -/
private theorem mask_apply (a b : ℕ) (ha : a < 8) (hb : b < 8) (r c : Fin 512) :
    k0_pay16 (BitVec.ofNat 32 a) (BitVec.ofNat 32 b) (ix2 r c) = if a * 512 + r.val = b * 512 + c.val then 1#1 else 0#1 := by
  have e0 : iota .tc S512x512 32 [0] iota_S512x512_d0_w32 (ix2 r c) = BitVec.ofNat 32 r.val :=
    iota_single_apply .tc S512x512 32 0 _ (ix2 r c)
  have e1 : iota .tc S512x512 32 [1] iota_S512x512_d1_w32 (ix2 r c) = BitVec.ofNat 32 c.val :=
    iota_single_apply .tc S512x512 32 1 _ (ix2 r c)
  unfold k0_pay16
  show IntOp.cmpi .eq (BitVec.ofNat 32 a * 512#32 + iota .tc S512x512 32 [0] iota_S512x512_d0_w32 (ix2 r c))
    (BitVec.ofNat 32 b * 512#32 + iota .tc S512x512 32 [1] iota_S512x512_d1_w32 (ix2 r c)) = _
  rw [e0, e1, word_eq, word_eq]
  have hr := r.isLt
  have hc := c.isLt
  unfold IntOp.cmpi
  by_cases h : a * 512 + r.val = b * 512 + c.val
  · rw [if_pos h, h]; simp
  · rw [if_neg h]
    have : BitVec.ofNat 32 (a * 512 + r.val) ≠ BitVec.ofNat 32 (b * 512 + c.val) := fun e =>
      h ((word_inj _ _ (by omega) (by omega)).1 e)
    rw [beq_eq_false_iff_ne.2 this]; rfl

/-- The weights from the clamped distances: zero on the diagonal, exp of minus half the distance off it. -/
private theorem weights_apply (a b : ℕ) (ha : a < 8) (hb : b < 8) (d : FVec Ideal S512x512 .f32) (r c : Fin 512) :
    k0_pay17 (BitVec.ofNat 32 a) (BitVec.ofNat 32 b) d (ix2 r c)
      = if a * 512 + r.val = b * 512 + c.val then 0 else Ideal.exp ((0 - d (ix2 r c)) * half) := by
  unfold k0_pay17
  show Scalar.select (k0_pay16 (BitVec.ofNat 32 a) (BitVec.ofNat 32 b) (ix2 r c)) (Ideal.ofBits .f32 0x00000000#32)
    (Ideal.exp ((Ideal.ofBits .f32 0x00000000#32 - d (ix2 r c)) * Ideal.ofBits .f32 0x3F000000#32)) = _
  rw [mask_apply a b ha hb r c, Ideal.ofBits_zero_f32]
  unfold half
  by_cases h : a * 512 + r.val = b * 512 + c.val
  · rw [if_pos h, if_pos h, select_one]
  · rw [if_neg h, if_neg h, select_zero]

/-- The first target's weights at this point. -/
theorem wP_apply (a b : ℕ) (ha : a < 8) (hb : b < 8) (x0 x1 : Vec Ideal S512x128 .f32) (r c : Fin 512) :
    k0_pay17 (BitVec.ofNat 32 a) (BitVec.ofNat 32 b) (k0_pay13 x0 x1) (ix2 r c) = bwgt a b x0 x1 r c := by
  rw [weights_apply a b ha hb, pay13_apply]
  rfl

/-- The second target's weights at this point. -/
theorem wN_apply (a b : ℕ) (ha : a < 8) (hb : b < 8) (x0 x2 : Vec Ideal S512x128 .f32) (r c : Fin 512) :
    wN (BitVec.ofNat 32 a) (BitVec.ofNat 32 b) x0 x2 (ix2 r c) = bwgt a b x0 x2 r c := by
  unfold wN k0_pay18 k0_pay15
  show Scalar.select (k0_pay16 (BitVec.ofNat 32 a) (BitVec.ofNat 32 b) (ix2 r c)) (Ideal.ofBits .f32 0x00000000#32)
    (Ideal.exp ((Ideal.ofBits .f32 0x00000000#32 - max (k0_pay14 x0 x2 (ix2 r c)) (Ideal.ofBits .f32 0x00000000#32))
      * Ideal.ofBits .f32 0x3F000000#32)) = _
  rw [mask_apply a b ha hb r c, pay14_apply, Ideal.ofBits_zero_f32]
  unfold bwgt bdist half
  by_cases h : a * 512 + r.val = b * 512 + c.val
  · rw [if_pos h, if_pos h, select_one]
  · rw [if_neg h, if_neg h, select_zero]

end Cert.KernelIdeal.PayW

end
-- ==== Proof.PayIdx.lean ====
/-
  The body's composed stored values read entry by entry over the extended reals: a running row sum gains the block sum
  of the weights, a running weighted sum gains the block's weights times the target block, and the last point's
  stored block is the combination of the two fields of the finished sums.
-/
import proofs.«100952_j30296699306003_1_alg».proof.Proof.Steps
import proofs.«100952_j30296699306003_1_alg».proof.Proof.Spec
import proofs.«100952_j30296699306003_1_alg».proof.Proof.LibMatmulPlain
import proofs.«100952_j30296699306003_1_alg».proof.Proof.PayW
import Idealize.ShloMosaic.Lib.Pipeline.Value
import Idealize.ShloMosaic.Lib.ValueLayout

noncomputable section

open scoped BigOperators

namespace Cert.KernelIdeal.PayIdx

open Idealize.ShloMosaic Idealize.ShloMosaic.TcCoe Idealize.ShloMosaic.ValueIdx
open Cert.KernelIdeal Cert.KernelIdeal.Gen Cert.KernelIdeal.Steps Cert.KernelIdeal.PayW Cert.Drift

/-- The zero blocks the first column block's point stores. -/
theorem pay4_apply (r : Fin 512) (k : Fin 128) : (k0_pay4 (F := Ideal)) (ix2 r k) = 0 := by
  unfold k0_pay4
  refine (congrFun (shapeCast_self _ _) _).trans ?_
  exact Ideal.ofBits_zero_f32
theorem pay5_apply (r : Fin 512) : (k0_pay5 (F := Ideal)) (ix2 r (0 : Fin 1)) = 0 := by
  unfold k0_pay5
  refine (congrFun (shapeCast_self _ _) _).trans ?_
  exact Ideal.ofBits_zero_f32
theorem pay6_apply (r : Fin 512) (k : Fin 128) : (k0_pay6 (F := Ideal)) (ix2 r k) = 0 := by
  unfold k0_pay6
  refine (congrFun (shapeCast_self _ _) _).trans ?_
  exact Ideal.ofBits_zero_f32
theorem pay7_apply (r : Fin 512) : (k0_pay7 (F := Ideal)) (ix2 r (0 : Fin 1)) = 0 := by
  unfold k0_pay7
  refine (congrFun (shapeCast_self _ _) _).trans ?_
  exact Ideal.ofBits_zero_f32

/-- A lane sum of a 512×512 block, kept as a column, read at row r: the sum of the row's entries. -/
private theorem rowSumCol_apply (src : FVec Ideal S512x512 .f32) (h : S512x512.Reduces [1] S512)
    (hφ : FKind.Formats .f32) (hacc : (0x00000000#32 : BitVec 32) = 0x00000000#32)
    (hc : S512.ShapeCasts S512x1) (r : Fin 512) :
    shapeCast S512x1 (multiReduction (F := Ideal) .add [1] S512 src 0x00000000#32 h hφ hacc) hc (ix2 r (0 : Fin 1))
      = ∑ c : Fin 512, src (ix2 r c) := by
  refine (shapeCast_apply _ hc (ix2 r (0 : Fin 1)) (ix1 r) ?_).trans ?_
  · rw [Shape.rowMajor_val_one, Shape.rowMajor_val_two]
    show r.val = r.val * 1 + 0
    omega
  · refine (Ideal.multiReduction_add_single src 0x00000000#32 h hφ hacc (ix1 r)).trans ?_
    refine Finset.sum_congr rfl fun c _ => congrArg src ?_
    funext a
    match a with
    | ⟨0, _⟩ => exact Fin.ext rfl
    | ⟨1, _⟩ => exact Fin.ext rfl

/-- The first target's row sums gain the block sum of the weights. -/
theorem stepSP_apply (a b : ℕ) (ha : a < 8) (hb : b < 8) (x0 x1 : Vec Ideal S512x128 .f32) (prev : Vec Ideal S512x1 .f32)
    (r : Fin 512) :
    stepSP (BitVec.ofNat 32 a) (BitVec.ofNat 32 b) x0 x1 prev (ix2 r (0 : Fin 1)) = prev (ix2 r (0 : Fin 1)) + bS a b x0 x1 r := by
  unfold stepSP k0_pay19
  refine (congrFun (shapeCast_self _ _) _).trans ?_
  refine (addf_apply _ _ _).trans ?_
  refine congrArg (fun z => prev (ix2 r (0 : Fin 1)) + z) ?_
  refine (rowSumCol_apply _ _ _ _ _ r).trans ?_
  exact Finset.sum_congr rfl fun c _ => wP_apply a b ha hb x0 x1 r c

/-- The second target's row sums. -/
theorem stepSN_apply (a b : ℕ) (ha : a < 8) (hb : b < 8) (x0 x2 : Vec Ideal S512x128 .f32) (prev : Vec Ideal S512x1 .f32)
    (r : Fin 512) :
    stepSN (BitVec.ofNat 32 a) (BitVec.ofNat 32 b) x0 x2 prev (ix2 r (0 : Fin 1)) = prev (ix2 r (0 : Fin 1)) + bS a b x0 x2 r := by
  unfold stepSN k0_pay1
  refine (congrFun (shapeCast_self _ _) _).trans ?_
  refine (addf_apply _ _ _).trans ?_
  refine congrArg (fun z => prev (ix2 r (0 : Fin 1)) + z) ?_
  refine (rowSumCol_apply _ _ _ _ _ r).trans ?_
  exact Finset.sum_congr rfl fun c _ => wN_apply a b ha hb x0 x2 r c

/-- The generated contraction record is the plain 512×512 by 512×128 one. -/
private theorem dot_eq_plain : dot_S512x512_S512x128_S512x128_1_0_0_1_n_n = DotDims.plain 512 512 128 := rfl

/-- A 512×512 block times a 512×128 block into zero, read at (r, k). -/
private theorem matmulZero_apply (A : FVec Ideal S512x512 .f32) (B : FVec Ideal S512x128 .f32) (r : Fin 512) (k : Fin 128) :
    FloatOps.matmul dot_S512x512_S512x128_S512x128_1_0_0_1_n_n none A B (constant S512x128 .f32 0x00000000#32) (ix2 r k)
      = ∑ c : Fin 512, A (ix2 r c) * B (ix2 c k) := by
  rw [dot_eq_plain]
  exact Cert.LibMatmulPlain.matmul_plain_zero_apply none A B r k

/-- The first target's weighted sums gain the weights times the target block. -/
theorem stepAccP_apply (a b : ℕ) (ha : a < 8) (hb : b < 8) (x0 x1 : Vec Ideal S512x128 .f32) (prev : Vec Ideal S512x128 .f32)
    (r : Fin 512) (k : Fin 128) :
    stepAccP (BitVec.ofNat 32 a) (BitVec.ofNat 32 b) x0 x1 prev (ix2 r k) = prev (ix2 r k) + bA a b x0 x1 r k := by
  unfold stepAccP k0_pay20
  refine (congrFun (shapeCast_self _ _) _).trans ?_
  refine (addf_apply _ _ _).trans ?_
  refine congrArg (fun z => prev (ix2 r k) + z) ?_
  refine (matmulZero_apply _ _ r k).trans ?_
  refine Finset.sum_congr rfl fun c _ => ?_
  have e : k0_pay9 x1 = x1 := by unfold k0_pay9; exact shapeCast_self _ _
  rw [wP_apply a b ha hb x0 x1 r c, e]

/-- The second target's weighted sums. -/
theorem stepAccN_apply (a b : ℕ) (ha : a < 8) (hb : b < 8) (x0 x2 : Vec Ideal S512x128 .f32) (prev : Vec Ideal S512x128 .f32)
    (r : Fin 512) (k : Fin 128) :
    stepAccN (BitVec.ofNat 32 a) (BitVec.ofNat 32 b) x0 x2 prev (ix2 r k) = prev (ix2 r k) + bA a b x0 x2 r k := by
  unfold stepAccN k0_pay2
  refine (congrFun (shapeCast_self _ _) _).trans ?_
  refine (addf_apply _ _ _).trans ?_
  refine congrArg (fun z => prev (ix2 r k) + z) ?_
  refine (matmulZero_apply _ _ r k).trans ?_
  refine Finset.sum_congr rfl fun c _ => ?_
  have e : k0_pay10 x2 = x2 := by unfold k0_pay10; exact shapeCast_self _ _
  rw [wN_apply a b ha hb x0 x2 r c, e]

/-- A column [512, 1] broadcast along the lanes, read at (r, k): the column's entry at row r. -/
private theorem colBroadcast_apply {α : Type} (x : S512x1.Idx → α) (h : S512x1.Broadcasts S512x128) (r : Fin 512) (k : Fin 128) :
    broadcastTo S512x128 x h (ix2 r k) = x (ix2 r (0 : Fin 1)) := by
  refine broadcastTo_apply x h (ix2 r k) (ix2 r (0 : Fin 1)) fun ax => ?_
  match ax with
  | ⟨0, _⟩ => rfl
  | ⟨1, _⟩ => rfl

/-- The stored output block: minus the first field plus half the second. -/
theorem finalOut_apply (x0 : Vec Ideal S512x128 .f32) (sp sn : Vec Ideal S512x1 .f32) (ap an : Vec Ideal S512x128 .f32)
    (r : Fin 512) (k : Fin 128) :
    finalOut x0 sp sn ap an (ix2 r k)
      = combine (field x0 (fun r => sp (ix2 r (0 : Fin 1))) (fun r k => ap (ix2 r k)) r k)
          (field x0 (fun r => sn (ix2 r (0 : Fin 1))) (fun r k => an (ix2 r k)) r k) := by
  have e8 : k0_pay8 x0 = x0 := by unfold k0_pay8; exact shapeCast_self _ _
  unfold finalOut k0_pay3
  rw [e8]
  simp only [addf_apply, mulf_apply, subf_apply, divf_apply, maximumf_apply, broadcast_apply, colBroadcast_apply]
  rfl

end Cert.KernelIdeal.PayIdx

end
-- ==== Proof.Blocks.lean ====
/-
  The input blocks of a grid point, as row blocks of the three reshaped arrays: point t = 8·i + j reads row block i of
  the first array and row block j of the two targets.
-/
import proofs.«100952_j30296699306003_1_alg».proof.Proof.Gen.KernelIdeal.Frame
import proofs.«100952_j30296699306003_1_alg».proof.Proof.Spec
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Drift

variable (m : (ℓ : Loc nD τ sig) → Buf (Elt Ideal) ℓ)

/-- The three arrays as the region finds them: the arguments reshaped to [4096, 128]. -/
abbrev X (c : Dev nD) : Flat := V m c main_v0
abbrev Pp (c : Dev nD) : Flat := V m c main_v1
abbrev Nn (c : Dev nD) : Flat := V m c main_v2

/-- Point t's row block and column block. -/
def ibOf (t : Fin cfg0.N) : Fin 8 := ⟨t.val / 8, by have h := t.isLt; have hN : cfg0.N = 64 := N_0; omega⟩
def jbOf (t : Fin cfg0.N) : Fin 8 := ⟨t.val % 8, Nat.mod_lt _ (by decide)⟩

theorem coord0 (t : Fin cfg0.N) : (grid0.coords t 0).val = t.val / 8 :=
  (by decide +kernel : ∀ t : Fin grid0.N, (grid0.coords t 0).val = t.val / 8) t
theorem coord1 (t : Fin cfg0.N) : (grid0.coords t 1).val = t.val % 8 :=
  (by decide +kernel : ∀ t : Fin grid0.N, (grid0.coords t 1).val = t.val % 8) t

theorem iblk0_eq (c : Dev nD) (t : Fin cfg0.N) : (iblk m c 0 t : Vec Ideal S512x128 .f32) = blkOf (X m c) (ibOf t) := by
  have hi : win0_0.index t 0 = t.val / 8 ∧ win0_0.index t 1 = 0 :=
    (by decide +kernel : ∀ t : Fin grid0.N, win0_0.index t 0 = t.val / 8 ∧ win0_0.index t 1 = 0) t
  funext j
  unfold iblk blkOf row
  rw [View.read_apply]
  show V m c main_v0 _ = V m c main_v0 _
  congr 1
  funext a
  apply Fin.ext
  match a with
  | ⟨0, _⟩ => show win0_0.index t 0 * 512 + 1 * (j 0).val = (ibOf t).val * 512 + (j 0).val; rw [hi.1]; show _ = t.val / 8 * 512 + _; omega
  | ⟨1, _⟩ => show win0_0.index t 1 * 128 + 1 * (j 1).val = (j 1).val; rw [hi.2]; omega
theorem iblk1_eq (c : Dev nD) (t : Fin cfg0.N) : (iblk m c 1 t : Vec Ideal S512x128 .f32) = blkOf (Pp m c) (jbOf t) := by
  have hi : win0_1.index t 0 = t.val % 8 ∧ win0_1.index t 1 = 0 :=
    (by decide +kernel : ∀ t : Fin grid0.N, win0_1.index t 0 = t.val % 8 ∧ win0_1.index t 1 = 0) t
  funext j
  unfold iblk blkOf row
  rw [View.read_apply]
  show V m c main_v1 _ = V m c main_v1 _
  congr 1
  funext a
  apply Fin.ext
  match a with
  | ⟨0, _⟩ => show win0_1.index t 0 * 512 + 1 * (j 0).val = (jbOf t).val * 512 + (j 0).val; rw [hi.1]; show _ = t.val % 8 * 512 + _; omega
  | ⟨1, _⟩ => show win0_1.index t 1 * 128 + 1 * (j 1).val = (j 1).val; rw [hi.2]; omega
theorem iblk2_eq (c : Dev nD) (t : Fin cfg0.N) : (iblk m c 2 t : Vec Ideal S512x128 .f32) = blkOf (Nn m c) (jbOf t) := by
  have hi : win0_2.index t 0 = t.val % 8 ∧ win0_2.index t 1 = 0 :=
    (by decide +kernel : ∀ t : Fin grid0.N, win0_2.index t 0 = t.val % 8 ∧ win0_2.index t 1 = 0) t
  funext j
  unfold iblk blkOf row
  rw [View.read_apply]
  show V m c main_v2 _ = V m c main_v2 _
  congr 1
  funext a
  apply Fin.ext
  match a with
  | ⟨0, _⟩ => show win0_2.index t 0 * 512 + 1 * (j 0).val = (jbOf t).val * 512 + (j 0).val; rw [hi.1]; show _ = t.val % 8 * 512 + _; omega
  | ⟨1, _⟩ => show win0_2.index t 1 * 128 + 1 * (j 1).val = (j 1).val; rw [hi.2]; omega

/-- The arrays are the arguments' reshapes. -/
theorem X_eq (c : Dev nD) : X m c = shapeCast S4096x128 (m ((c.tc : Thread nD τ).loc main_arg0)) shapeCasts_S4096x16x8_S4096x128 := by
  show StableHlo.after hostOps0 (fun b => m (c, b)) (Proc.devRef .tc main_v0) = _
  after_results
  rfl
theorem Pp_eq (c : Dev nD) : Pp m c = shapeCast S4096x128 (m ((c.tc : Thread nD τ).loc main_arg1)) shapeCasts_S4096x16x8_S4096x128 := by
  show StableHlo.after hostOps0 (fun b => m (c, b)) (Proc.devRef .tc main_v1) = _
  after_results
  rfl
theorem Nn_eq (c : Dev nD) : Nn m c = shapeCast S4096x128 (m ((c.tc : Thread nD τ).loc main_arg2)) shapeCasts_S4096x16x8_S4096x128 := by
  show StableHlo.after hostOps0 (fun b => m (c, b)) (Proc.devRef .tc main_v2) = _
  after_results
  rfl

end Cert.KernelIdeal.Blocks

end
-- ==== Proof.Invariant.lean ====
/-
  The running sums point by point. After point t = 8·i + j the four carried buffers hold, for row block i, the row sums
  and the weighted sums over column blocks 0 … j for each of the two targets; at a row block's last point (j = 7) the
  output block holds the combined field of the finished sums. By induction on the point: the first column block's
  point starts from the zero blocks, every later one adds its share to what the point before left.
-/
import proofs.«100952_j30296699306003_1_alg».proof.Proof.Pieces
import proofs.«100952_j30296699306003_1_alg».proof.Proof.PayIdx
import proofs.«100952_j30296699306003_1_alg».proof.Proof.Blocks

set_option maxRecDepth 16384

noncomputable section

namespace Cert.KernelIdeal.Invariant

open Idealize.ShloMosaic Idealize.ShloMosaic.TcCoe Idealize.ShloMosaic.ValueIdx Idealize.SL.Sem
open Cert.KernelIdeal Cert.KernelIdeal.Gen Cert.KernelIdeal.Steps Cert.KernelIdeal.Blocks Cert.Drift
open Cert.KernelIdeal.PayIdx Cert.KernelIdeal.Pieces

variable (m : (ℓ : Loc nD τ sig) → Buf (Elt Ideal) ℓ)

/-! ## The sums one column block further -/

private theorem sCol_apply (X Y : Flat) (a n : ℕ) (ha : a < 8) (r : Fin 512) :
    sCol X Y a n (ix2 r (0 : Fin 1)) = partS X Y ⟨a, ha⟩ n r := dif_pos ha

private theorem aBlk_apply (X Y : Flat) (a n : ℕ) (ha : a < 8) (r : Fin 512) (k : Fin 128) :
    aBlk X Y a n (ix2 r k) = partA X Y ⟨a, ha⟩ n r k := dif_pos ha

private theorem partS_succ (X Y : Flat) (ib : Fin 8) (j : ℕ) (hj : j + 1 < 8) (r : Fin 512) :
    partS X Y ib (j + 1) r = partS X Y ib j r + bS ib.val (j + 1) (blkOf X ib) (blkOf Y ⟨j + 1, hj⟩) r := by
  unfold partS
  rw [Finset.sum_range_succ]
  congr 1
  exact dif_pos hj

private theorem partA_succ (X Y : Flat) (ib : Fin 8) (j : ℕ) (hj : j + 1 < 8) (r : Fin 512) (k : Fin 128) :
    partA X Y ib (j + 1) r k = partA X Y ib j r k + bA ib.val (j + 1) (blkOf X ib) (blkOf Y ⟨j + 1, hj⟩) r k := by
  unfold partA
  rw [Finset.sum_range_succ]
  congr 1
  exact dif_pos hj

private theorem partS_zero (X Y : Flat) (ib : Fin 8) (r : Fin 512) :
    partS X Y ib 0 r = bS ib.val 0 (blkOf X ib) (blkOf Y ⟨0, by decide⟩) r := by
  unfold partS
  rw [Finset.sum_range_one]
  exact dif_pos (by decide)

private theorem partA_zero (X Y : Flat) (ib : Fin 8) (r : Fin 512) (k : Fin 128) :
    partA X Y ib 0 r k = bA ib.val 0 (blkOf X ib) (blkOf Y ⟨0, by decide⟩) r k := by
  unfold partA
  rw [Finset.sum_range_one]
  exact dif_pos (by decide)

/-- Two [512, 1] columns with the same entries are the same column. -/
private theorem col_ext (u v : Col) (h : ∀ r : Fin 512, u (ix2 r (0 : Fin 1)) = v (ix2 r (0 : Fin 1))) : u = v := by
  funext y
  have hlt : (y 1).val < 1 := idx2_lt1 y
  have h1 : y 1 = (0 : Fin 1) := Fin.ext (show (y 1).val = 0 by omega)
  have hy : y = ix2 (y 0) (0 : Fin 1) := by
    have := eq_ix2 y
    rw [h1] at this
    exact this
  rw [hy]
  exact h _

/-- Two [512, 128] blocks with the same entries are the same block. -/
private theorem blk_ext (u v : Blk) (h : ∀ (r : Fin 512) (k : Fin 128), u (ix2 r k) = v (ix2 r k)) : u = v := by
  funext y
  rw [eq_ix2 y]
  exact h _ _

/-- A later column block's point adds its share to the row sums (first target). -/
private theorem sP_step (X P : Flat) (a j : ℕ) (ha : a < 8) (hj : j + 1 < 8) (prev : Vec Ideal S512x1 .f32)
    (hprev : prev = sCol X P a j) :
    stepSP (F := Ideal) (BitVec.ofNat 32 a) (BitVec.ofNat 32 (j + 1)) (blkOf X ⟨a, ha⟩) (blkOf P ⟨j + 1, hj⟩) prev = sCol X P a (j + 1) := by
  subst hprev
  refine col_ext _ _ fun r => ?_
  rw [stepSP_apply a (j + 1) ha hj, sCol_apply X P a j ha, sCol_apply X P a (j + 1) ha, partS_succ X P ⟨a, ha⟩ j hj]

private theorem sN_step (X N : Flat) (a j : ℕ) (ha : a < 8) (hj : j + 1 < 8) (prev : Vec Ideal S512x1 .f32)
    (hprev : prev = sCol X N a j) :
    stepSN (F := Ideal) (BitVec.ofNat 32 a) (BitVec.ofNat 32 (j + 1)) (blkOf X ⟨a, ha⟩) (blkOf N ⟨j + 1, hj⟩) prev = sCol X N a (j + 1) := by
  subst hprev
  refine col_ext _ _ fun r => ?_
  rw [stepSN_apply a (j + 1) ha hj, sCol_apply X N a j ha, sCol_apply X N a (j + 1) ha, partS_succ X N ⟨a, ha⟩ j hj]

private theorem aP_step (X P : Flat) (a j : ℕ) (ha : a < 8) (hj : j + 1 < 8) (prev : Vec Ideal S512x128 .f32)
    (hprev : prev = aBlk X P a j) :
    stepAccP (F := Ideal) (BitVec.ofNat 32 a) (BitVec.ofNat 32 (j + 1)) (blkOf X ⟨a, ha⟩) (blkOf P ⟨j + 1, hj⟩) prev = aBlk X P a (j + 1) := by
  subst hprev
  refine blk_ext _ _ fun r k => ?_
  rw [stepAccP_apply a (j + 1) ha hj, aBlk_apply X P a j ha, aBlk_apply X P a (j + 1) ha, partA_succ X P ⟨a, ha⟩ j hj]

private theorem aN_step (X N : Flat) (a j : ℕ) (ha : a < 8) (hj : j + 1 < 8) (prev : Vec Ideal S512x128 .f32)
    (hprev : prev = aBlk X N a j) :
    stepAccN (F := Ideal) (BitVec.ofNat 32 a) (BitVec.ofNat 32 (j + 1)) (blkOf X ⟨a, ha⟩) (blkOf N ⟨j + 1, hj⟩) prev = aBlk X N a (j + 1) := by
  subst hprev
  refine blk_ext _ _ fun r k => ?_
  rw [stepAccN_apply a (j + 1) ha hj, aBlk_apply X N a j ha, aBlk_apply X N a (j + 1) ha, partA_succ X N ⟨a, ha⟩ j hj]

/-- The first column block's point starts the row sums from the zero block (first target). -/
private theorem sP_first (X P : Flat) (a : ℕ) (ha : a < 8) :
    stepSP (F := Ideal) (BitVec.ofNat 32 a) (BitVec.ofNat 32 0) (blkOf X ⟨a, ha⟩) (blkOf P ⟨0, by decide⟩) (k0_pay5 (F := Ideal)) = sCol X P a 0 := by
  refine col_ext _ _ fun r => ?_
  rw [stepSP_apply a 0 ha (by decide), pay5_apply, zero_add, sCol_apply X P a 0 ha, partS_zero X P ⟨a, ha⟩]

private theorem sN_first (X N : Flat) (a : ℕ) (ha : a < 8) :
    stepSN (F := Ideal) (BitVec.ofNat 32 a) (BitVec.ofNat 32 0) (blkOf X ⟨a, ha⟩) (blkOf N ⟨0, by decide⟩) (k0_pay7 (F := Ideal)) = sCol X N a 0 := by
  refine col_ext _ _ fun r => ?_
  rw [stepSN_apply a 0 ha (by decide), pay7_apply, zero_add, sCol_apply X N a 0 ha, partS_zero X N ⟨a, ha⟩]

private theorem aP_first (X P : Flat) (a : ℕ) (ha : a < 8) :
    stepAccP (F := Ideal) (BitVec.ofNat 32 a) (BitVec.ofNat 32 0) (blkOf X ⟨a, ha⟩) (blkOf P ⟨0, by decide⟩) (k0_pay4 (F := Ideal)) = aBlk X P a 0 := by
  refine blk_ext _ _ fun r k => ?_
  rw [stepAccP_apply a 0 ha (by decide), pay4_apply, zero_add, aBlk_apply X P a 0 ha, partA_zero X P ⟨a, ha⟩]

private theorem aN_first (X N : Flat) (a : ℕ) (ha : a < 8) :
    stepAccN (F := Ideal) (BitVec.ofNat 32 a) (BitVec.ofNat 32 0) (blkOf X ⟨a, ha⟩) (blkOf N ⟨0, by decide⟩) (k0_pay6 (F := Ideal)) = aBlk X N a 0 := by
  refine blk_ext _ _ fun r k => ?_
  rw [stepAccN_apply a 0 ha (by decide), pay6_apply, zero_add, aBlk_apply X N a 0 ha, partA_zero X N ⟨a, ha⟩]

/-- The last point's stored block is the result's row block. -/
private theorem out_final (X P N : Flat) (a : ℕ) (ha : a < 8) :
    finalOut (F := Ideal) (blkOf X ⟨a, ha⟩) (sCol X P a 7) (sCol X N a 7) (aBlk X P a 7) (aBlk X N a 7) = outBlk X P N a := by
  refine blk_ext _ _ fun r k => ?_
  rw [finalOut_apply]
  show _ = (if h : a < 8 then outRows X P N ⟨a, h⟩ r k else 0)
  rw [dif_pos ha]
  unfold outRows
  have e1 : (fun r => sCol X P a 7 (ix2 r (0 : Fin 1))) = partS X P ⟨a, ha⟩ 7 := funext fun r => sCol_apply X P a 7 ha r
  have e2 : (fun r => sCol X N a 7 (ix2 r (0 : Fin 1))) = partS X N ⟨a, ha⟩ 7 := funext fun r => sCol_apply X N a 7 ha r
  have e3 : (fun r k => aBlk X P a 7 (ix2 r k)) = partA X P ⟨a, ha⟩ 7 := funext fun r => funext fun k => aBlk_apply X P a 7 ha r k
  have e4 : (fun r k => aBlk X N a 7 (ix2 r k)) = partA X N ⟨a, ha⟩ 7 := funext fun r => funext fun k => aBlk_apply X N a 7 ha r k
  rw [e1, e2, e3, e4]

/-! ## The same at a point's own blocks -/

private theorem first4 (X P N : Flat) (ib jb : Fin 8) (hj : jb.val = 0) :
    stepAccP (F := Ideal) (BitVec.ofNat 32 ib.val) (BitVec.ofNat 32 jb.val) (blkOf X ib) (blkOf P jb) (k0_pay4 (F := Ideal)) = aBlk X P ib.val jb.val
    ∧ stepSP (F := Ideal) (BitVec.ofNat 32 ib.val) (BitVec.ofNat 32 jb.val) (blkOf X ib) (blkOf P jb) (k0_pay5 (F := Ideal)) = sCol X P ib.val jb.val
    ∧ stepAccN (F := Ideal) (BitVec.ofNat 32 ib.val) (BitVec.ofNat 32 jb.val) (blkOf X ib) (blkOf N jb) (k0_pay6 (F := Ideal)) = aBlk X N ib.val jb.val
    ∧ stepSN (F := Ideal) (BitVec.ofNat 32 ib.val) (BitVec.ofNat 32 jb.val) (blkOf X ib) (blkOf N jb) (k0_pay7 (F := Ideal)) = sCol X N ib.val jb.val := by
  obtain ⟨a, ha⟩ := ib
  obtain ⟨j, hjlt⟩ := jb
  dsimp only at hj ⊢
  subst hj
  exact ⟨aP_first X P a ha, sP_first X P a ha, aN_first X N a ha, sN_first X N a ha⟩

private theorem step4 (X P N : Flat) (ib jb : Fin 8) (j : ℕ) (hj : jb.val = j + 1)
    (p0 : Vec Ideal S512x128 .f32) (p1 : Vec Ideal S512x1 .f32) (p2 : Vec Ideal S512x128 .f32) (p3 : Vec Ideal S512x1 .f32)
    (h0 : p0 = aBlk X P ib.val j) (h1 : p1 = sCol X P ib.val j) (h2 : p2 = aBlk X N ib.val j) (h3 : p3 = sCol X N ib.val j) :
    stepAccP (F := Ideal) (BitVec.ofNat 32 ib.val) (BitVec.ofNat 32 jb.val) (blkOf X ib) (blkOf P jb) p0 = aBlk X P ib.val jb.val
    ∧ stepSP (F := Ideal) (BitVec.ofNat 32 ib.val) (BitVec.ofNat 32 jb.val) (blkOf X ib) (blkOf P jb) p1 = sCol X P ib.val jb.val
    ∧ stepAccN (F := Ideal) (BitVec.ofNat 32 ib.val) (BitVec.ofNat 32 jb.val) (blkOf X ib) (blkOf N jb) p2 = aBlk X N ib.val jb.val
    ∧ stepSN (F := Ideal) (BitVec.ofNat 32 ib.val) (BitVec.ofNat 32 jb.val) (blkOf X ib) (blkOf N jb) p3 = sCol X N ib.val jb.val := by
  obtain ⟨a, ha⟩ := ib
  obtain ⟨j', hjlt⟩ := jb
  dsimp only at hj h0 h1 h2 h3 ⊢
  subst hj
  exact ⟨aP_step X P a j ha hjlt p0 h0, sP_step X P a j ha hjlt p1 h1, aN_step X N a j ha hjlt p2 h2, sN_step X N a j ha hjlt p3 h3⟩

/-! ## Point by point -/

/-- A row block's first point: the sums are the first column block's shares. -/
private theorem at_A (c : Dev nD) (t : Fin cfg0.N) (h0 : t.val % 8 = 0) :
    (outsAt0 m c t.val t.isLt).2.1 = aBlk (X m c) (Pp m c) (t.val / 8) (t.val % 8)
    ∧ (outsAt0 m c t.val t.isLt).2.2.1 = sCol (X m c) (Pp m c) (t.val / 8) (t.val % 8)
    ∧ (outsAt0 m c t.val t.isLt).2.2.2.1 = aBlk (X m c) (Nn m c) (t.val / 8) (t.val % 8)
    ∧ (outsAt0 m c t.val t.isLt).2.2.2.2 = sCol (X m c) (Nn m c) (t.val / 8) (t.val % 8) := by
  have h1 : ¬t.val % 8 = 7 := by omega
  have c0 : (grid0.coords t 0).val = (ibOf t).val := coord0 _
  have c1 : (grid0.coords t 1).val = (jbOf t).val := coord1 _
  rw [outsAt0_A m c t h0 h1]
  dsimp only
  rw [sout_A_0 (F := Ideal) .., sout_A_1 (F := Ideal) .., sout_A_2 (F := Ideal) .., sout_A_3 (F := Ideal) ..]
  rw [c0, c1, iblk0_eq, iblk1_eq, iblk2_eq]
  exact first4 (X m c) (Pp m c) (Nn m c) (ibOf t) (jbOf t) h0

private theorem at_B (c : Dev nD) (n : ℕ) (h : n + 1 < cfg0.N) (h0 : ¬(n + 1) % 8 = 0) (h1 : ¬(n + 1) % 8 = 7)
    (ih : ∀ h : n < cfg0.N, (outsAt0 m c n h).2.1 = aBlk (X m c) (Pp m c) (n / 8) (n % 8)
      ∧ (outsAt0 m c n h).2.2.1 = sCol (X m c) (Pp m c) (n / 8) (n % 8)
      ∧ (outsAt0 m c n h).2.2.2.1 = aBlk (X m c) (Nn m c) (n / 8) (n % 8)
      ∧ (outsAt0 m c n h).2.2.2.2 = sCol (X m c) (Nn m c) (n / 8) (n % 8)) :
    (outsAt0 m c (n + 1) h).2.1 = aBlk (X m c) (Pp m c) ((n + 1) / 8) ((n + 1) % 8)
    ∧ (outsAt0 m c (n + 1) h).2.2.1 = sCol (X m c) (Pp m c) ((n + 1) / 8) ((n + 1) % 8)
    ∧ (outsAt0 m c (n + 1) h).2.2.2.1 = aBlk (X m c) (Nn m c) ((n + 1) / 8) ((n + 1) % 8)
    ∧ (outsAt0 m c (n + 1) h).2.2.2.2 = sCol (X m c) (Nn m c) ((n + 1) / 8) ((n + 1) % 8) := by
  have hN : cfg0.N = 64 := N_0
  have c0 : (grid0.coords ⟨n + 1, h⟩ 0).val = (ibOf ⟨n + 1, h⟩).val := coord0 _
  have c1 : (grid0.coords ⟨n + 1, h⟩ 1).val = (jbOf ⟨n + 1, h⟩).val := coord1 _
  rw [outsAt0_B m c ⟨n + 1, h⟩ h0 h1]
  dsimp only
  rw [sout_B_0 (F := Ideal) .., sout_B_1 (F := Ideal) .., sout_B_2 (F := Ideal) .., sout_B_3 (F := Ideal) ..]
  rw [c0, c1, iblk0_eq, iblk1_eq, iblk2_eq]
  obtain ⟨i0, i1, i2, i3⟩ := ih (by omega)
  have e0 : n / 8 = (n + 1) / 8 := by omega
  rw [e0] at i0 i1 i2 i3
  exact step4 (X m c) (Pp m c) (Nn m c) (ibOf ⟨n + 1, h⟩) (jbOf ⟨n + 1, h⟩) (n % 8) (show (n + 1) % 8 = n % 8 + 1 by omega)
    _ _ _ _ i0 i1 i2 i3

private theorem at_C (c : Dev nD) (n : ℕ) (h : n + 1 < cfg0.N) (h0 : ¬(n + 1) % 8 = 0) (h1 : (n + 1) % 8 = 7)
    (ih : ∀ h : n < cfg0.N, (outsAt0 m c n h).2.1 = aBlk (X m c) (Pp m c) (n / 8) (n % 8)
      ∧ (outsAt0 m c n h).2.2.1 = sCol (X m c) (Pp m c) (n / 8) (n % 8)
      ∧ (outsAt0 m c n h).2.2.2.1 = aBlk (X m c) (Nn m c) (n / 8) (n % 8)
      ∧ (outsAt0 m c n h).2.2.2.2 = sCol (X m c) (Nn m c) (n / 8) (n % 8)) :
    (outsAt0 m c (n + 1) h).2.1 = aBlk (X m c) (Pp m c) ((n + 1) / 8) ((n + 1) % 8)
    ∧ (outsAt0 m c (n + 1) h).2.2.1 = sCol (X m c) (Pp m c) ((n + 1) / 8) ((n + 1) % 8)
    ∧ (outsAt0 m c (n + 1) h).2.2.2.1 = aBlk (X m c) (Nn m c) ((n + 1) / 8) ((n + 1) % 8)
    ∧ (outsAt0 m c (n + 1) h).2.2.2.2 = sCol (X m c) (Nn m c) ((n + 1) / 8) ((n + 1) % 8) := by
  have hN : cfg0.N = 64 := N_0
  have c0 : (grid0.coords ⟨n + 1, h⟩ 0).val = (ibOf ⟨n + 1, h⟩).val := coord0 _
  have c1 : (grid0.coords ⟨n + 1, h⟩ 1).val = (jbOf ⟨n + 1, h⟩).val := coord1 _
  rw [outsAt0_C m c ⟨n + 1, h⟩ h0 h1]
  dsimp only
  rw [sout_C_0 (F := Ideal) .., sout_C_1 (F := Ideal) .., sout_C_2 (F := Ideal) .., sout_C_3 (F := Ideal) ..]
  rw [c0, c1, iblk0_eq, iblk1_eq, iblk2_eq]
  obtain ⟨i0, i1, i2, i3⟩ := ih (by omega)
  have e0 : n / 8 = (n + 1) / 8 := by omega
  rw [e0] at i0 i1 i2 i3
  exact step4 (X m c) (Pp m c) (Nn m c) (ibOf ⟨n + 1, h⟩) (jbOf ⟨n + 1, h⟩) (n % 8) (show (n + 1) % 8 = n % 8 + 1 by omega)
    _ _ _ _ i0 i1 i2 i3

/-- The carried sums after point n. -/
theorem sums_at (c : Dev nD) : ∀ (n : ℕ) (h : n < cfg0.N),
    (outsAt0 m c n h).2.1 = aBlk (X m c) (Pp m c) (n / 8) (n % 8)
    ∧ (outsAt0 m c n h).2.2.1 = sCol (X m c) (Pp m c) (n / 8) (n % 8)
    ∧ (outsAt0 m c n h).2.2.2.1 = aBlk (X m c) (Nn m c) (n / 8) (n % 8)
    ∧ (outsAt0 m c n h).2.2.2.2 = sCol (X m c) (Nn m c) (n / 8) (n % 8) := by
  intro n
  induction n with
  | zero => exact fun h => at_A m c ⟨0, h⟩ rfl
  | succ n ih =>
    intro h
    by_cases h0 : (n + 1) % 8 = 0
    · exact at_A m c ⟨n + 1, h⟩ h0
    · by_cases h1 : (n + 1) % 8 = 7
      · exact at_C m c n h h0 h1 ih
      · exact at_B m c n h h0 h1 ih

/-- The output block after a row block's last point. -/
theorem out_at_last (c : Dev nD) (t : Fin cfg0.N) (h7 : t.val % 8 = 7) :
    (outsAt0 m c t.val t.isLt).1 = outBlk (X m c) (Pp m c) (Nn m c) (t.val / 8) := by
  have hN : cfg0.N = 64 := N_0
  have hlt : t.val < 64 := lt_of_lt_of_eq t.isLt hN
  have h0 : ¬t.val % 8 = 0 := by omega
  have c0 : (grid0.coords t 0).val = (ibOf t).val := coord0 _
  have c1 : (grid0.coords t 1).val = (jbOf t).val := coord1 _
  rw [outsAt0_C m c t h0 h7]
  dsimp only
  rw [out_C_3 (F := Ideal) ..]
  rw [c0, c1, iblk0_eq, iblk1_eq, iblk2_eq]
  obtain ⟨i0, i1, i2, i3⟩ := sums_at m c (t.val - 1) (by omega)
  have e0 : (t.val - 1) / 8 = t.val / 8 := by omega
  have e1 : (t.val - 1) % 8 = 6 := by omega
  rw [e0, e1] at i0 i1 i2 i3
  obtain ⟨s0, s1, s2, s3⟩ := step4 (X m c) (Pp m c) (Nn m c) (ibOf t) (jbOf t) 6 h7 _ _ _ _ i0 i1 i2 i3
  rw [s0, s1, s2, s3]
  have h7' : (jbOf t).val = 7 := h7
  rw [h7']
  exact out_final (X m c) (Pp m c) (Nn m c) (ibOf t).val (ibOf t).isLt

end Cert.KernelIdeal.Invariant

end
-- ==== Proof.KernelValue.lean ====
/-
  The kernel program's result. The output window is written back at each row block's last point with the combined
  field of that row block; the eight blocks tile the [4096, 128] result array, which is therefore the field row block
  by row block; the program's last operation reshapes it to [4096, 16, 8].
-/
import proofs.«100952_j30296699306003_1_alg».proof.Proof.Invariant
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Invariant Cert.Drift

variable (m : (ℓ : Loc nD τ sig) → Buf (Elt Ideal) ℓ) (ρ : Dev nD → PrngReg)

/-- The output window's block index at point t is (t / 8, 0). -/
private theorem idx_facts : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- Row block a of the result at an index of the block. -/
private theorem outBlk_apply (X P N : Flat) (a : ℕ) (h : a < 8) (y : (⟨2, ![512, 128]⟩ : Shape).Idx) :
    outBlk X P N a y = outRows X P N ⟨a, h⟩ (y 0) (y 1) := by
  unfold outBlk
  exact dif_pos h

/-- What a row block's last point writes back is that row block of the field: entry (r, k) of block t / 8 is entry
    (512 · (t / 8) + r, k) of the whole array. -/
private theorem flushed_eq (c : Dev nD) (t : Fin cfg0.N) (hf : (cfg0.win 3).flush t = true) :
    (dats m 0 c).flushed 3 t = ((cfg0.win 3).blk t).view.read (Elt Ideal) (outFlat (X m c) (Pp m c) (Nn m c)) := by
  have hN : cfg0.N = 64 := N_0
  have h7 : t.val % 8 = 7 := (flush0_3 t).mp hf
  show (cfg0.win 3).cut (grid0.coords t) ((dats m 0 c).after 3 t) = _
  rw [after0_3, out_at_last m c t h7]
  obtain ⟨e0, e1⟩ := idx_facts t
  funext y
  have hlt : t.val / 8 < 8 := by have := t.isLt; omega
  have hy0 : (y 0).val < 512 := Nat.lt_of_lt_of_le (y 0).isLt (win0_3.xsize_le (grid0.coords t) 0)
  have hy1 : (y 1).val < 128 := Nat.lt_of_lt_of_le (y 1).isLt (win0_3.xsize_le (grid0.coords t) 1)
  have a0 : ((((cfg0.win 3).blk t).view.emb y) 0).val = win0_3.index t 0 * 512 + 1 * (y 0).val := rfl
  have a1 : ((((cfg0.win 3).blk t).view.emb y) 1).val = win0_3.index t 1 * 128 + 1 * (y 1).val := rfl
  show outBlk (X m c) (Pp m c) (Nn m c) (t.val / 8) (win0_3.xinj (grid0.coords t) y)
    = outFlat (X m c) (Pp m c) (Nn m c) (((cfg0.win 3).blk t).view.emb y)
  rw [outBlk_apply _ _ _ _ hlt]
  unfold outFlat
  congr 1
  · apply Fin.ext
    show t.val / 8 = ((((cfg0.win 3).blk t).view.emb y) 0).val / 512
    rw [a0, e0]; omega
  · apply Fin.ext
    show (y 0).val = ((((cfg0.win 3).blk t).view.emb y) 0).val % 512
    rw [a0, e0]; omega
  · apply Fin.ext
    show (y 1).val = ((((cfg0.win 3).blk t).view.emb y) 1).val
    rw [a1, e1]; omega

/-- An index of the array is in point t's block iff each coordinate is in the block's range on its axis. -/
private theorem mem_blk (t : Fin cfg0.N) (i : S4096x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v3).slice (win0_3.rect t)).set ↔ _
  rw [View.set_slice_whole, Rect.mem_set_unit]
  exact Iff.rfl

/-- The eight written blocks tile the array: row i lies in the block of the last point of row block i / 512. -/
private theorem cover (i : S4096x128.Idx) :
    ∃ t : Fin cfg0.N, (cfg0.win 3).flush t = true ∧ i ∈ ((cfg0.win 3).blk t).view.set := by
  have hN : cfg0.N = 64 := N_0
  have hi0 : (i 0).val < 4096 := (i 0).isLt
  have hi1 : (i 1).val < 128 := (i 1).isLt
  have hb : 8 * ((i 0).val / 512) + 7 < cfg0.N := by omega
  obtain ⟨e0, e1⟩ := idx_facts ⟨8 * ((i 0).val / 512) + 7, hb⟩
  have e0' : win0_3.index ⟨8 * ((i 0).val / 512) + 7, hb⟩ (0 : Fin 2) = (8 * ((i 0).val / 512) + 7) / 8 := e0
  refine ⟨⟨8 * ((i 0).val / 512) + 7, hb⟩, (flush0_3 _).mpr (by show (8 * ((i 0).val / 512) + 7) % 8 = 7; omega), ?_⟩
  rw [mem_blk]
  intro a
  match a with
  | ⟨0, _⟩ =>
    show win0_3.index ⟨8 * ((i 0).val / 512) + 7, hb⟩ (0 : Fin 2) * 512 ≤ (i 0).val
      ∧ (i 0).val < win0_3.index ⟨8 * ((i 0).val / 512) + 7, hb⟩ (0 : Fin 2) * 512 + 512
    rw [e0']; omega
  | ⟨1, _⟩ =>
    show win0_3.index ⟨8 * ((i 0).val / 512) + 7, hb⟩ (1 : Fin 2) * 128 ≤ (i 1).val
      ∧ (i 1).val < win0_3.index ⟨8 * ((i 0).val / 512) + 7, hb⟩ (1 : Fin 2) * 128 + 128
    rw [e1]; omega

/-- The result array after the region: the field, row block by row block. -/
theorem final3 (c : Dev nD) : (dats m 0 c).arrAt 3 cfg0.N = outFlat (X m c) (Pp m c) (Nn m c) :=
  (dats m 0 c).arrAt_eq_of_cover 3 (outFlat (X m c) (Pp m c) (Nn m c)) (fun t hf => flushed_eq m c t hf) (fun i => cover i)

/-- The program's result as one function of the argument arrays. -/
def result (x0 x1 x2 : (⟨S4096x16x8, .f32⟩ : BufTy).Contents (Elt Ideal)) : (⟨S4096x16x8, .f32⟩ : BufTy).Contents (Elt Ideal) :=
  shapeCast S4096x16x8 (outFlat (shapeCast S4096x128 x0 shapeCasts_S4096x16x8_S4096x128)
    (shapeCast S4096x128 x1 shapeCasts_S4096x16x8_S4096x128) (shapeCast S4096x128 x2 shapeCasts_S4096x16x8_S4096x128))
    shapeCasts_S4096x128_S4096x16x8

/-- The last operation reshapes the result array: the result buffer ends at the reshape of the field of the three
    reshaped arguments. -/
private theorem tail_v4 (c : Dev nD) :
    Pipeline.afterTail₀ cfgs (dats m) 0 (V0 m) [hostOps1] c main_v4
      = result (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v4) = _
  after_results
  have e3 : (Pipeline.withArrays (cfgs 0).spec c (V0 m c) (fun w => (dats m 0 c).arrAt w (cfgs 0).N) (Proc.tc.devRef main_v3)
      : S4096x128.Idx → Elt Ideal .f32) = outFlat (X m c) (Pp m c) (Nn m c) :=
    (Pipeline.withArrays_arr spec0 launch0.win.arr_inj c _ _ 3).trans (final3 m c)
  unfold result
  rw [← X_eq m c, ← Pp_eq m c, ← Nn_eq m c]
  exact congrArg (fun z : S4096x128.Idx → Elt Ideal .f32 => shapeCast S4096x16x8 z shapeCasts_S4096x128_S4096x16x8) e3

/-- Every weakly fair execution ends with the result buffer at that function of the arguments, the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference program's last stage before its final reshape, read entry by entry: the direct form of the field over
  the three reshaped arguments.
-/
import proofs.«100952_j30296699306003_1_alg».proof.Proof.Gen.ReferenceIdeal.Run
import proofs.«100952_j30296699306003_1_alg».proof.Proof.Gen.ReferenceIdeal.Read
import proofs.«100952_j30296699306003_1_alg».proof.Proof.Spec
import Idealize.ShloMosaic.Lib.IdealHost

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Drift

/-- Two counters below 4096 are the same 32-bit word exactly when they are the same number. -/
private theorem ofNat_inj_lt (p q : Fin 4096) : BitVec.ofNat 32 p.val = BitVec.ofNat 32 q.val ↔ p = q := by
  constructor
  · intro h
    have h' := congrArg BitVec.toNat h
    rw [BitVec.toNat_ofNat, BitVec.toNat_ofNat] at h'
    have hp := p.isLt
    have hq := q.isLt
    exact Fin.ext (by omega)
  · intro h; rw [h]

/-- The compare-and-convert of two counters is the indicator of their equality. -/
private theorem diag_word (p q : Fin 4096) :
    ((((IntOp.cmpi .eq (IntOp.addi (BitVec.ofNat 32 p.val) 0#32) (BitVec.ofNat 32 q.val)) : BitVec 1).toNat : ℝ) : EReal)
      = if p = q then (1 : EReal) else 0 := by
  have h0 : IntOp.addi (BitVec.ofNat 32 p.val) 0#32 = BitVec.ofNat 32 p.val := by
    show BitVec.ofNat 32 p.val + 0#32 = _
    exact BitVec.add_zero _
  rw [h0]
  by_cases h : p = q
  · rw [if_pos h, h]
    have ho : IntOp.cmpi .eq (BitVec.ofNat 32 q.val) (BitVec.ofNat 32 q.val) = 1#1 := by
      show BitVec.ofBool (BitVec.ofNat 32 q.val == BitVec.ofNat 32 q.val) = 1#1
      rw [beq_self_eq_true]; rfl
    rw [ho]
    norm_num
  · rw [if_neg h]
    have hne : BitVec.ofNat 32 p.val ≠ BitVec.ofNat 32 q.val := fun e => h ((ofNat_inj_lt p q).mp e)
    have hz : IntOp.cmpi .eq (BitVec.ofNat 32 p.val) (BitVec.ofNat 32 q.val) = 0#1 := by
      show BitVec.ofBool (BitVec.ofNat 32 p.val == BitVec.ofNat 32 q.val) = 0#1
      rw [beq_eq_false_iff_ne.mpr hne]; rfl
    rw [hz]
    norm_num

/-- The indicator of the diagonal: the two counters agree exactly when the coordinates do. -/
private theorem diagA (p q : Fin 4096) :
    val_main_v28 (F := Ideal) (ix2 p q) = if p = q then (1 : EReal) else 0 := by
  rw [val_main_v28_apply, val_main_v27_apply, val_main_v26_apply, val_main_v25_apply, val_main_c_apply,
    val_main_v23_apply, val_main_v24_apply]
  exact diag_word p q

/-- The squared norm of a row of the first argument, spread along the columns of the square matrix. -/
private theorem sqXA (x0 : (⟨S4096x16x8, .f32⟩ : BufTy).Contents (Elt Ideal)) (i j : Fin 4096) :
    val_main_v9 (F := Ideal) x0 (ix2 i j)
      = ∑ k : Fin 128, val_main_v0 (F := Ideal) x0 (ix2 i k) * val_main_v0 (F := Ideal) x0 (ix2 i k) := by
  rw [val_main_v9_apply, val_main_v7_apply, val_main_v4_apply, val_main_cst_apply, Ideal.ofBits_def,
    Ideal.ofBits_zero_f32, zero_add]
  refine Finset.sum_congr rfl fun k _ => ?_
  rw [val_main_v3_apply, Ideal.mulf_def]
  have e : idx_main_v4 (idx_main_v7 (idx_main_v9 (ix2 i j))) k = ix2 i k :=
    funext fun a => Fin.ext (by match a with | ⟨0, _⟩ => rfl | ⟨1, _⟩ => rfl)
  rw [e]

/-- The squared norm of a row of the second argument, spread along the rows of the square matrix. -/
private theorem sqYA (x1 : (⟨S4096x16x8, .f32⟩ : BufTy).Contents (Elt Ideal)) (i j : Fin 4096) :
    val_main_v10 (F := Ideal) x1 (ix2 i j)
      = ∑ k : Fin 128, val_main_v1 (F := Ideal) x1 (ix2 j k) * val_main_v1 (F := Ideal) x1 (ix2 j k) := by
  rw [val_main_v10_apply, val_main_v8_apply, val_main_v6_apply, val_main_cst_0_apply, Ideal.ofBits_def,
    Ideal.ofBits_zero_f32, zero_add]
  refine Finset.sum_congr rfl fun k _ => ?_
  rw [val_main_v5_apply, Ideal.mulf_def]
  have e : idx_main_v6 (idx_main_v8 (idx_main_v10 (ix2 i j))) k = ix2 j k :=
    funext fun a => Fin.ext (by match a with | ⟨0, _⟩ => rfl | ⟨1, _⟩ => rfl)
  rw [e]

/-- The inner products of the rows. -/
private theorem dotA (x0 x1 : (⟨S4096x16x8, .f32⟩ : BufTy).Contents (Elt Ideal)) (i j : Fin 4096) :
    val_main_v13 (F := Ideal) x0 x1 (ix2 i j)
      = ∑ k : Fin 128, val_main_v0 (F := Ideal) x0 (ix2 i k) * val_main_v1 (F := Ideal) x1 (ix2 j k) := by
  rw [val_main_v13_apply]
  refine Finset.sum_congr rfl fun k _ => ?_
  rw [val_main_v12_apply]
  have e1 : lidx_main_v13 (ix2 i j) k = ix2 i k :=
    funext fun a => Fin.ext (by match a with | ⟨0, _⟩ => rfl | ⟨1, _⟩ => rfl)
  have e2 : idx_main_v12 (ridx_main_v13 (ix2 i j) k) = ix2 j k :=
    funext fun a => Fin.ext (by match a with | ⟨0, _⟩ => rfl | ⟨1, _⟩ => rfl)
  rw [e1, e2]

/-- The weight matrix, entry by entry. -/
private theorem wgtA (x0 x1 : (⟨S4096x16x8, .f32⟩ : BufTy).Contents (Elt Ideal)) (i j : Fin 4096) :
    val_main_v31 (F := Ideal) x0 x1 (ix2 i j)
      = wgtR (val_main_v0 (F := Ideal) x0) (val_main_v1 (F := Ideal) x1) i j := by
  rw [val_main_v31_apply, val_main_v22_apply, val_main_v21_apply, val_main_v19_apply, val_main_v18_apply,
    val_main_v16_apply, val_main_v11_apply, val_main_v15_apply, val_main_v30_apply, val_main_v29_apply,
    val_main_v20_apply, val_main_v17_apply, val_main_v14_apply, val_main_cst_1_apply, val_main_cst_2_apply,
    val_main_cst_3_apply, val_main_cst_4_apply, sqXA, sqYA, dotA, diagA]
  simp only [Ideal.ofBits_def, Ideal.mulf_def, Ideal.addf_def, Ideal.subf_def, Ideal.maximumf_def, Ideal.hostDivf_def,
    Ideal.hostNegf_def, Ideal.negf_def, Ideal.hostUnary_exp_def]
  rw [Ideal.ofBits_zero_f32]
  rfl

/-- The row sums of the weights, as a column. -/
private theorem sumA (x0 x1 : (⟨S4096x16x8, .f32⟩ : BufTy).Contents (Elt Ideal)) (i : Fin 4096) (z : Fin 1) :
    val_main_v33 (F := Ideal) x0 x1 (ix2 i z)
      = sumR (val_main_v0 (F := Ideal) x0) (val_main_v1 (F := Ideal) x1) i := by
  rw [val_main_v33_apply, val_main_v32_apply, val_main_cst_5_apply, Ideal.ofBits_def, Ideal.ofBits_zero_f32, zero_add]
  unfold sumR
  refine Finset.sum_congr rfl fun k _ => ?_
  have e : idx_main_v32 (idx_main_v33 (ix2 i z)) k = ix2 i k :=
    funext fun a => Fin.ext (by match a with | ⟨0, _⟩ => rfl | ⟨1, _⟩ => rfl)
  rw [e, wgtA]

/-- The clamped row sums, as a column. -/
private theorem clampA (x0 x1 : (⟨S4096x16x8, .f32⟩ : BufTy).Contents (Elt Ideal)) (i : Fin 4096) (z : Fin 1) :
    val_main_v35 (F := Ideal) x0 x1 (ix2 i z)
      = max (sumR (val_main_v0 (F := Ideal) x0) (val_main_v1 (F := Ideal) x1) i) eps := by
  rw [val_main_v35_apply, val_main_v34_apply, val_main_cst_6_apply, sumA, Ideal.ofBits_def, Ideal.maximumf_def]
  rfl

/-- The field of the first pair of arguments, entry by entry. -/
private theorem fieldA (x0 x1 : (⟨S4096x16x8, .f32⟩ : BufTy).Contents (Elt Ideal)) (i : Fin 4096) (k : Fin 128) :
    val_main_v42 (F := Ideal) x0 x1 (ix2 i k)
      = fieldR (val_main_v0 (F := Ideal) x0) (val_main_v1 (F := Ideal) x1) i k := by
  rw [val_main_v42_apply, val_main_v40_apply, val_main_v39_apply, val_main_v38_apply, val_main_v41_apply]
  have e0 : idx_main_v39 (ix2 i k) = ix2 i (0 : Fin 1) :=
    funext fun a => Fin.ext (by match a with | ⟨0, _⟩ => rfl | ⟨1, _⟩ => rfl)
  rw [e0, sumA, clampA, Ideal.subf_def, Ideal.mulf_def, Ideal.hostDivf_def]
  unfold fieldR
  refine congrArg (_ - ·) (Finset.sum_congr rfl fun j _ => ?_)
  have e1 : lidx_main_v41 (ix2 i k) j = ix2 i j :=
    funext fun a => Fin.ext (by match a with | ⟨0, _⟩ => rfl | ⟨1, _⟩ => rfl)
  have e2 : ridx_main_v41 (ix2 i k) j = ix2 j k :=
    funext fun a => Fin.ext (by match a with | ⟨0, _⟩ => rfl | ⟨1, _⟩ => rfl)
  have e3 : idx_main_v36 (ix2 i j) = ix2 i (0 : Fin 1) :=
    funext fun a => Fin.ext (by match a with | ⟨0, _⟩ => rfl | ⟨1, _⟩ => rfl)
  rw [e1, e2, val_main_v37_apply, val_main_v36_apply, e3, wgtA, clampA, Ideal.hostDivf_def]
/-- The indicator of the diagonal: the two counters agree exactly when the coordinates do. -/
private theorem diagB (p q : Fin 4096) :
    val_main_v72 (F := Ideal) (ix2 p q) = if p = q then (1 : EReal) else 0 := by
  rw [val_main_v72_apply, val_main_v71_apply, val_main_v70_apply, val_main_v69_apply, val_main_c_14_apply,
    val_main_v67_apply, val_main_v68_apply]
  exact diag_word p q

/-- The squared norm of a row of the first argument, spread along the columns of the square matrix. -/
private theorem sqXB (x0 : (⟨S4096x16x8, .f32⟩ : BufTy).Contents (Elt Ideal)) (i j : Fin 4096) :
    val_main_v53 (F := Ideal) x0 (ix2 i j)
      = ∑ k : Fin 128, val_main_v0 (F := Ideal) x0 (ix2 i k) * val_main_v0 (F := Ideal) x0 (ix2 i k) := by
  rw [val_main_v53_apply, val_main_v51_apply, val_main_v48_apply, val_main_cst_9_apply, Ideal.ofBits_def,
    Ideal.ofBits_zero_f32, zero_add]
  refine Finset.sum_congr rfl fun k _ => ?_
  rw [val_main_v47_apply, Ideal.mulf_def]
  have e : idx_main_v48 (idx_main_v51 (idx_main_v53 (ix2 i j))) k = ix2 i k :=
    funext fun a => Fin.ext (by match a with | ⟨0, _⟩ => rfl | ⟨1, _⟩ => rfl)
  rw [e]

/-- The squared norm of a row of the third argument, spread along the rows of the square matrix. -/
private theorem sqYB (x2 : (⟨S4096x16x8, .f32⟩ : BufTy).Contents (Elt Ideal)) (i j : Fin 4096) :
    val_main_v54 (F := Ideal) x2 (ix2 i j)
      = ∑ k : Fin 128, val_main_v2 (F := Ideal) x2 (ix2 j k) * val_main_v2 (F := Ideal) x2 (ix2 j k) := by
  rw [val_main_v54_apply, val_main_v52_apply, val_main_v50_apply, val_main_cst_10_apply, Ideal.ofBits_def,
    Ideal.ofBits_zero_f32, zero_add]
  refine Finset.sum_congr rfl fun k _ => ?_
  rw [val_main_v49_apply, Ideal.mulf_def]
  have e : idx_main_v50 (idx_main_v52 (idx_main_v54 (ix2 i j))) k = ix2 j k :=
    funext fun a => Fin.ext (by match a with | ⟨0, _⟩ => rfl | ⟨1, _⟩ => rfl)
  rw [e]

/-- The inner products of the rows. -/
private theorem dotB (x0 x2 : (⟨S4096x16x8, .f32⟩ : BufTy).Contents (Elt Ideal)) (i j : Fin 4096) :
    val_main_v57 (F := Ideal) x0 x2 (ix2 i j)
      = ∑ k : Fin 128, val_main_v0 (F := Ideal) x0 (ix2 i k) * val_main_v2 (F := Ideal) x2 (ix2 j k) := by
  rw [val_main_v57_apply]
  refine Finset.sum_congr rfl fun k _ => ?_
  rw [val_main_v56_apply]
  have e1 : lidx_main_v57 (ix2 i j) k = ix2 i k :=
    funext fun a => Fin.ext (by match a with | ⟨0, _⟩ => rfl | ⟨1, _⟩ => rfl)
  have e2 : idx_main_v56 (ridx_main_v57 (ix2 i j) k) = ix2 j k :=
    funext fun a => Fin.ext (by match a with | ⟨0, _⟩ => rfl | ⟨1, _⟩ => rfl)
  rw [e1, e2]

/-- The weight matrix, entry by entry. -/
private theorem wgtB (x0 x2 : (⟨S4096x16x8, .f32⟩ : BufTy).Contents (Elt Ideal)) (i j : Fin 4096) :
    val_main_v75 (F := Ideal) x0 x2 (ix2 i j)
      = wgtR (val_main_v0 (F := Ideal) x0) (val_main_v2 (F := Ideal) x2) i j := by
  rw [val_main_v75_apply, val_main_v66_apply, val_main_v65_apply, val_main_v63_apply, val_main_v62_apply,
    val_main_v60_apply, val_main_v55_apply, val_main_v59_apply, val_main_v74_apply, val_main_v73_apply,
    val_main_v64_apply, val_main_v61_apply, val_main_v58_apply, val_main_cst_11_apply, val_main_cst_12_apply,
    val_main_cst_13_apply, val_main_cst_15_apply, sqXB, sqYB, dotB, diagB]
  simp only [Ideal.ofBits_def, Ideal.mulf_def, Ideal.addf_def, Ideal.subf_def, Ideal.maximumf_def, Ideal.hostDivf_def,
    Ideal.hostNegf_def, Ideal.negf_def, Ideal.hostUnary_exp_def]
  rw [Ideal.ofBits_zero_f32]
  rfl

/-- The row sums of the weights, as a column. -/
private theorem sumB (x0 x2 : (⟨S4096x16x8, .f32⟩ : BufTy).Contents (Elt Ideal)) (i : Fin 4096) (z : Fin 1) :
    val_main_v77 (F := Ideal) x0 x2 (ix2 i z)
      = sumR (val_main_v0 (F := Ideal) x0) (val_main_v2 (F := Ideal) x2) i := by
  rw [val_main_v77_apply, val_main_v76_apply, val_main_cst_16_apply, Ideal.ofBits_def, Ideal.ofBits_zero_f32, zero_add]
  unfold sumR
  refine Finset.sum_congr rfl fun k _ => ?_
  have e : idx_main_v76 (idx_main_v77 (ix2 i z)) k = ix2 i k :=
    funext fun a => Fin.ext (by match a with | ⟨0, _⟩ => rfl | ⟨1, _⟩ => rfl)
  rw [e, wgtB]

/-- The clamped row sums, as a column. -/
private theorem clampB (x0 x2 : (⟨S4096x16x8, .f32⟩ : BufTy).Contents (Elt Ideal)) (i : Fin 4096) (z : Fin 1) :
    val_main_v79 (F := Ideal) x0 x2 (ix2 i z)
      = max (sumR (val_main_v0 (F := Ideal) x0) (val_main_v2 (F := Ideal) x2) i) eps := by
  rw [val_main_v79_apply, val_main_v78_apply, val_main_cst_17_apply, sumB, Ideal.ofBits_def, Ideal.maximumf_def]
  rfl

/-- The field of the second pair of arguments, entry by entry. -/
private theorem fieldB (x0 x2 : (⟨S4096x16x8, .f32⟩ : BufTy).Contents (Elt Ideal)) (i : Fin 4096) (k : Fin 128) :
    val_main_v86 (F := Ideal) x0 x2 (ix2 i k)
      = fieldR (val_main_v0 (F := Ideal) x0) (val_main_v2 (F := Ideal) x2) i k := by
  rw [val_main_v86_apply, val_main_v84_apply, val_main_v83_apply, val_main_v82_apply, val_main_v85_apply]
  have e0 : idx_main_v83 (ix2 i k) = ix2 i (0 : Fin 1) :=
    funext fun a => Fin.ext (by match a with | ⟨0, _⟩ => rfl | ⟨1, _⟩ => rfl)
  rw [e0, sumB, clampB, Ideal.subf_def, Ideal.mulf_def, Ideal.hostDivf_def]
  unfold fieldR
  refine congrArg (_ - ·) (Finset.sum_congr rfl fun j _ => ?_)
  have e1 : lidx_main_v85 (ix2 i k) j = ix2 i j :=
    funext fun a => Fin.ext (by match a with | ⟨0, _⟩ => rfl | ⟨1, _⟩ => rfl)
  have e2 : ridx_main_v85 (ix2 i k) j = ix2 j k :=
    funext fun a => Fin.ext (by match a with | ⟨0, _⟩ => rfl | ⟨1, _⟩ => rfl)
  have e3 : idx_main_v80 (ix2 i j) = ix2 i (0 : Fin 1) :=
    funext fun a => Fin.ext (by match a with | ⟨0, _⟩ => rfl | ⟨1, _⟩ => rfl)
  rw [e1, e2, val_main_v81_apply, val_main_v80_apply, e3, wgtB, clampB, Ideal.hostDivf_def]

/-- The reference's [4096, 128] result is the direct form of the field of its three reshaped arguments. -/
theorem flat_eq (x0 x1 x2 : (⟨S4096x16x8, .f32⟩ : BufTy).Contents (Elt Ideal)) :
    val_main_v91 (F := Ideal) x0 x1 x2
      = outFlatR (val_main_v0 (F := Ideal) x0) (val_main_v1 (F := Ideal) x1) (val_main_v2 (F := Ideal) x2) := by
  funext i
  obtain ⟨p, q, rfl⟩ : ∃ (p : Fin 4096) (q : Fin 128), i = ix2 p q := ⟨i 0, i 1, eq_ix2 i⟩
  rw [val_main_v91_apply, val_main_v46_apply, val_main_v45_apply, val_main_v44_apply, val_main_v43_apply,
    val_main_v90_apply, val_main_v89_apply, val_main_v88_apply, val_main_v87_apply, val_main_cst_7_apply,
    val_main_cst_8_apply, val_main_cst_18_apply, val_main_cst_19_apply, fieldA, fieldB]
  simp only [Ideal.ofBits_def, Ideal.mulf_def, Ideal.addf_def]
  rfl

end Cert.ReferenceIdeal.RefValue

end
-- ==== Proof.Algebra.lean ====
/-
  The two spellings of the field agree on every extended real.

  * -d/2 = (0 - d)·½, and w·(1 - [i = j]) is w off the diagonal and 0 on it.
  * The eight block sums, added one after the other, are the sum over all 4096 columns.
  * max(S, ε) is positive, so its inverse c is a nonnegative real; (Σ_j w_j·y_j)·c = Σ_j (w_j·c)·y_j because
    multiplication by a nonnegative finite number distributes over every sum of extended reals.
-/
import proofs.«100952_j30296699306003_1_alg».proof.Proof.Spec
import Mathlib.Data.EReal.Operations
import Mathlib.Data.EReal.Inv

noncomputable section

open scoped BigOperators

namespace Cert.Drift

open Idealize.ShloMosaic Idealize.ShloMosaic.ValueIdx

/-! ## The five literals -/

private theorem two_eq : two = ((2 : ℝ) : EReal) := by
  simp [two, Ideal.ofBits, Ideal.ieee, -EReal.coe_mul]; norm_num

private theorem half_eq : half = ((1 / 2 : ℝ) : EReal) := by
  simp [half, Ideal.ofBits, Ideal.ieee, -EReal.coe_mul]; norm_num

private theorem one_eq : one = 1 := by
  simp [one, Ideal.ofBits, Ideal.ieee, -EReal.coe_mul]; norm_num

private theorem eps_pos : 0 < eps := by
  simp [eps, Ideal.ofBits, Ideal.ieee, -EReal.coe_mul]

/-! ## The weight -/

/-- The quotient by two is the product with one half. -/
private theorem exp_div_two (d : EReal) : Ideal.exp (Ideal.div (-d) two) = Ideal.exp ((0 - d) * half) := by
  rw [two_eq, Ideal.div_coe (by norm_num : (2 : ℝ) ≠ 0), half_eq, zero_sub]

/-- The product with one minus the indicator keeps w off the diagonal and is 0 on it. -/
private theorem mul_offdiag (w : EReal) (p : Prop) [Decidable p] :
    w * (one - (if p then (1 : EReal) else 0)) = if p then 0 else w := by
  rw [one_eq]
  by_cases h : p
  · rw [if_pos h, if_pos h]
    have h11 : (1 : EReal) - 1 = 0 := by
      rw [← EReal.coe_one, ← EReal.coe_sub, sub_self, EReal.coe_zero]
    rw [h11, mul_zero]
  · rw [if_neg h, if_neg h, sub_zero, mul_one]

/-- Two rows of the array are the same row exactly when their positions agree. -/
private theorem row_eq_iff (a b : Fin 8) (r c : Fin 512) :
    row a r = row b c ↔ a.val * 512 + r.val = b.val * 512 + c.val := by
  simp [row, Fin.ext_iff]

/-- The reference's weight at (row r of block ib, row c of block jb) is the block weight. -/
private theorem wgtR_row (X Y : Flat) (ib jb : Fin 8) (r c : Fin 512) :
    wgtR X Y (row ib r) (row jb c) = bwgt ib.val jb.val (blkOf X ib) (blkOf Y jb) r c := by
  unfold wgtR bwgt
  rw [exp_div_two, mul_offdiag]
  exact if_congr (row_eq_iff ib jb r c) rfl rfl

/-! ## Eight blocks of 512 are the 4096 columns -/

/-- A column of the array is a block and a position in it. -/
private def rowEquiv : Fin 8 × Fin 512 ≃ Fin 4096 where
  toFun p := row p.1 p.2
  invFun j := (⟨j.val / 512, by have := j.isLt; omega⟩, ⟨j.val % 512, Nat.mod_lt _ (by decide)⟩)
  left_inv p := by
    obtain ⟨a, b⟩ := p
    have ha := a.isLt
    have hb := b.isLt
    refine Prod.ext (Fin.ext ?_) (Fin.ext ?_)
    · show (a.val * 512 + b.val) / 512 = a.val
      omega
    · show (a.val * 512 + b.val) % 512 = b.val
      omega
  right_inv j := by
    refine Fin.ext ?_
    show j.val / 512 * 512 + j.val % 512 = j.val
    exact Nat.div_add_mod' _ _

/-- A sum over the 4096 columns is the sum over the blocks of the sums over each block. -/
private theorem sum_rows (f : Fin 4096 → EReal) :
    ∑ j : Fin 4096, f j = ∑ b : Fin 8, ∑ c : Fin 512, f (row b c) := by
  rw [← Equiv.sum_comp rowEquiv f, Fintype.sum_prod_type]
  rfl

/-- The row sums after all eight column blocks are the reference's row sums. -/
private theorem partS_eq (X Y : Flat) (ib : Fin 8) (r : Fin 512) :
    partS X Y ib 7 r = sumR X Y (row ib r) := by
  unfold partS sumR
  rw [sum_rows, Finset.sum_range]
  refine Finset.sum_congr rfl (fun jb _ => ?_)
  unfold shareS
  rw [dif_pos jb.isLt]
  unfold bS
  refine Finset.sum_congr rfl (fun c _ => ?_)
  exact (wgtR_row X Y ib jb r c).symm

/-- The weighted sums after all eight column blocks are the sums over all columns. -/
private theorem partA_eq (X Y : Flat) (ib : Fin 8) (r : Fin 512) (k : Fin 128) :
    partA X Y ib 7 r k = ∑ j : Fin 4096, wgtR X Y (row ib r) j * Y (ix2 j k) := by
  unfold partA
  rw [sum_rows, Finset.sum_range]
  refine Finset.sum_congr rfl (fun jb _ => ?_)
  unfold shareA
  rw [dif_pos jb.isLt]
  unfold bA
  refine Finset.sum_congr rfl (fun c _ => ?_)
  rw [wgtR_row X Y ib jb r c]
  rfl

/-! ## The normalization -/

/-- A nonnegative finite factor distributes over every sum of extended reals. -/
private theorem sum_mul_const {ι : Type} (s : Finset ι) (t : ι → EReal) {c : EReal} (h0 : 0 ≤ c) (ht : c ≠ ⊤) :
    (∑ j ∈ s, t j) * c = ∑ j ∈ s, t j * c := by
  classical
  induction s using Finset.induction_on with
  | empty => simp
  | insert a s ha ih =>
    rw [Finset.sum_insert ha, Finset.sum_insert ha, EReal.right_distrib_of_nonneg_of_ne_top h0 ht, ih]

/-- The divisor max(S, ε) is positive, so the quotient is the product with its inverse. -/
private theorem div_max (a S : EReal) : Ideal.div a (max S eps) = a * (max S eps)⁻¹ := by
  have hpos : 0 < max S eps := lt_max_of_lt_right eps_pos
  unfold Ideal.div
  rw [if_neg hpos.ne']

private theorem inv_max_nonneg (S : EReal) : 0 ≤ (max S eps)⁻¹ :=
  EReal.inv_nonneg_of_nonneg (le_max_of_le_right eps_pos.le)

private theorem inv_max_ne_top (S : EReal) : (max S eps)⁻¹ ≠ ⊤ := (EReal.inv_lt_top _).ne

/-- The field of a row block, from the sums over all eight column blocks, is the reference's field. -/
private theorem field_eq (X Y : Flat) (ib : Fin 8) (r : Fin 512) (k : Fin 128) :
    field (blkOf X ib) (partS X Y ib 7) (partA X Y ib 7) r k = fieldR X Y (row ib r) k := by
  unfold field fieldR
  rw [partS_eq, partA_eq, blkOf_apply]
  congr 1
  rw [div_max, sum_mul_const _ _ (inv_max_nonneg _) (inv_max_ne_top _)]
  refine Finset.sum_congr rfl (fun j _ => ?_)
  rw [div_max, mul_right_comm]

/-- A row block of the result is the reference's combination of the two fields at its rows. -/
private theorem outRows_eq (X P N : Flat) (ib : Fin 8) (r : Fin 512) (k : Fin 128) :
    outRows X P N ib r k
      = one * (negOne * fieldR X P (row ib r) k) + half * (one * fieldR X N (row ib r) k) := by
  unfold outRows combine
  rw [field_eq, field_eq, one_eq, one_mul, one_mul]

/-- The row-block form of the result is the reference's form. -/
theorem outFlat_eq (X P N : Flat) : outFlat X P N = outFlatR X P N := by
  funext i
  obtain ⟨a, b, rfl⟩ : ∃ (a : Fin 4096) (b : Fin 128), i = ix2 a b := ⟨i 0, i 1, eq_ix2 i⟩
  have ha : a.val < 4096 := a.isLt
  have hrow : row ⟨a.val / 512, by omega⟩ ⟨a.val % 512, Nat.mod_lt _ (by decide)⟩ = a :=
    Fin.ext (Nat.div_add_mod' _ _)
  show outRows X P N ⟨a.val / 512, _⟩ ⟨a.val % 512, _⟩ b
    = one * (negOne * fieldR X P a b) + half * (one * fieldR X N a b)
  rw [outRows_eq, hrow]

end Cert.Drift

end
-- ==== Proof.lean ====
/-
  The kernel computes, for 4096 rows x_i and two targets, the drift  -D(x, p) + ½ D(x, n)  with
      D(x, y)_i = x_i · (S_i / max(S_i, ε)) - (Σ_j w_ij y_j) / max(S_i, ε),   S_i = Σ_j w_ij,
      w_ij = exp(-max(|x_i|² + |y_j|² - 2 x_i·y_j, 0) / 2) off the diagonal, 0 on it,
  accumulating S and Σ_j w_ij y_j over eight column blocks of 512; the reference normalizes the weights first and
  sums over all 4096 columns at once. Over the extended reals the two agree for every input: the block sums regroup
  one sum, and division by max(S, ε) > 0 is multiplication by a nonnegative finite number, which distributes over
  every sum. The frames of the two kernel programs are the generated ones; the reference's frame is its run.
-/
import proofs.«100952_j30296699306003_1_alg».proof.Defs
import proofs.«100952_j30296699306003_1_alg».proof.Proof.Gen.Kernel
import proofs.«100952_j30296699306003_1_alg».proof.Proof.Gen.Kernel.Frame
import proofs.«100952_j30296699306003_1_alg».proof.Proof.Gen.KernelIdeal
import proofs.«100952_j30296699306003_1_alg».proof.Proof.Gen.KernelIdeal.Frame
import proofs.«100952_j30296699306003_1_alg».proof.Proof.Gen.ReferenceIdeal
import proofs.«100952_j30296699306003_1_alg».proof.Proof.Gen.ReferenceIdeal.Run
import proofs.«100952_j30296699306003_1_alg».proof.Proof.Gen.ReferenceIdeal.Read
import proofs.«100952_j30296699306003_1_alg».proof.Proof.Gen.Pre_finite_inputs
import proofs.«100952_j30296699306003_1_alg».proof.Proof.KernelValue
import proofs.«100952_j30296699306003_1_alg».proof.Proof.RefValue
import proofs.«100952_j30296699306003_1_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the kernel's function of arguments that agree: both are the final reshape of the field
    of the three reshaped arguments, in the reference's direct form and in the kernel's row-block form. -/
theorem result_eq (x0 x1 x2 : (⟨Cert.ReferenceIdeal.S4096x16x8, .f32⟩ : BufTy).Contents (Elt Ideal)) :
    Cert.ReferenceIdeal.Read.val_main_v92 (F := Ideal) x0 x1 x2 = Cert.KernelIdeal.KernelValue.result x0 x1 x2 := by
  unfold Cert.ReferenceIdeal.Read.val_main_v92 Cert.KernelIdeal.KernelValue.result
  rw [Cert.ReferenceIdeal.RefValue.flat_eq, Cert.Drift.outFlat_eq]
  rfl

theorem algebraic : Cert.algebraic_KernelIdeal_ReferenceIdeal := by
  intro m ρ m' ρ' _ hagree
  refine ⟨fun c => Cert.KernelIdeal.KernelValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq, (hagree c).1, (hagree c).2.1, (hagree c).2.2]
  exact result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
